-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S8x1024x2048 : Shape := ⟨3, ![8, 1024, 2048]⟩
abbrev S8x1024 : Shape := ⟨2, ![8, 1024]⟩
abbrev S32000 : Shape := ⟨1, ![32000]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S32000 : S_.BroadcastsInDim S32000 (![] : Fin 0 → Fin S32000.rank)
  reducesTo_S32000_S_d0 : S32000.ReducesTo [0] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_v13 : IVec S_ 1) (main_v15 : IVec S8x1024 1) (main_c_5 : IVec S_ 1) : IVec S_ 1 :=
  let main_v16 : IVec S_ 1 := (fun x v => Host.reduce IntOp.andi x v reducesTo_S8x1024_S_d0_1 h_S_) main_v15 main_c_5
  let main_v17 : IVec S_ 1 := andi main_v13 main_v16
  main_v17

def fn {F : FTy → Type} [FloatOps F] (main_arg0 : FVec F S32000x2048 .f32) (main_arg1 : FVec F S8x1024x2048 .f32) (main_arg2 : IVec S8x1024 32) (main_arg3 : FVec F S32000 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 31999#32
  let main_v14 : IVec S8x1024 32 := broadcastInDim S8x1024 ![] bcast_S_S8x1024 main_c_4
  let main_v15 : IVec S8x1024 1 := cmpi .sle main_arg2 main_v14
  let main_c_5 : IVec S_ 1 := constantI S_ 1 1#1
  fn_part1 (F := F) main_v13 main_v15 main_c_5
-- ==== Kernel.lean ====
abbrev S32000x2048 : Shape := ⟨2, ![32000, 2048]⟩
abbrev S8x1024x2048 : Shape := ⟨3, ![8, 1024, 2048]⟩
abbrev S8x1024 : Shape := ⟨2, ![8, 1024]⟩
abbrev S32000 : Shape := ⟨1, ![32000]⟩
abbrev S8192x2048 : Shape := ⟨2, ![8192, 2048]⟩
abbrev S1x32000 : Shape := ⟨2, ![1, 32000]⟩
abbrev S_ : Shape := ⟨0, ![]⟩
abbrev S8192x1 : Shape := ⟨2, ![8192, 1]⟩
abbrev S1024x2048 : Shape := ⟨2, ![1024, 2048]⟩
abbrev S1280x2048 : Shape := ⟨2, ![1280, 2048]⟩
abbrev S1x1280 : Shape := ⟨2, ![1, 1280]⟩
abbrev S1024x1 : Shape := ⟨2, ![1024, 1]⟩
abbrev S1024x1280 : Shape := ⟨2, ![1024, 1280]⟩
abbrev S1024 : Shape := ⟨1, ![1024]⟩
abbrev S8 : Shape := ⟨1, ![8]⟩
abbrev S4 : Shape := ⟨1, ![4]⟩
abbrev S4x1024 : Shape := ⟨2, ![4, 1024]⟩

abbrev nBuf : Space → Nat
  | .hbm => 77
  | .vmem => 13
  | .smem => 0
  | _ => 0

abbrev bufTy : (tb : Table) → Fin (tcTables nBuf tb) → BufTy
  | .hbm, ⟨0, _⟩ => ⟨S32000x2048, .f32⟩
  | .hbm, ⟨1, _⟩ => ⟨S8x1024x2048, .f32⟩
  | .hbm, ⟨2, _⟩ => ⟨S8x1024, .i32⟩
  | .hbm, ⟨3, _⟩ => ⟨S32000, .f32⟩
  | .hbm, ⟨4, _⟩ => ⟨S8192x2048, .f32⟩
  | .hbm, ⟨5, _⟩ => ⟨S8192x2048, .bf16⟩
  | .hbm, ⟨6, _⟩ => ⟨S32000x2048, .bf16⟩
  | .hbm, ⟨7, _⟩ => ⟨S1x32000, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x1024, .i32⟩
  | .hbm, ⟨12, _⟩ => ⟨S8x1024, .i32⟩
  | .hbm, ⟨13, _⟩ => ⟨S_, .i32⟩
  | .hbm, ⟨14, _⟩ => ⟨S8x1024, .i32⟩
  | .hbm, ⟨15, _⟩ => ⟨S8x1024, .i32⟩
  | .hbm, ⟨16, _⟩ => ⟨S8192x1, .i32⟩
  | .hbm, ⟨17, _⟩ => ⟨S8192x1, .f32⟩
  | .hbm, ⟨18, _⟩ => ⟨S8x1024, .f32⟩
  | .hbm, ⟨19, _⟩ => ⟨S_, .i32⟩
  | .hbm, ⟨20, _⟩ => ⟨S8x1024, .i32⟩
  | .hbm, ⟨21, _⟩ => ⟨S8x1024, .i1⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S4, .f32⟩
  | .hbm, ⟨33, _⟩ => ⟨S4, .f32⟩
  | .hbm, ⟨34, _⟩ => ⟨S4x1024, .f32⟩
  | .hbm, ⟨35, _⟩ => ⟨S4x1024, .f32⟩
  | .hbm, ⟨36, _⟩ => ⟨S4x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .i1⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1x1280, .f32⟩
  | .local _ .vmem, ⟨5, _⟩ => ⟨S1x1280, .f32⟩
  | .local _ .vmem, ⟨6, _⟩ => ⟨S1024x1, .i32⟩
  | .local _ .vmem, ⟨7, _⟩ => ⟨S1024x1, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_cst_9 : Ref sig .tc := ⟨.hbm, 74, rfl⟩
abbrev main_v39 : Ref sig .tc := ⟨.hbm, 75, rfl⟩
abbrev main_v40 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v50 : BitVec 1 := Scalar.cmpi .eq arg1 c24_i32
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x1024x2048_S8192x2048 : S8x1024x2048.ShapeCasts S8192x2048
  bitsLt_bf16_f32 : FTy.bits .bf16 < FTy.bits .f32
  shapeCasts_S32000_S1x32000 : S32000.ShapeCasts S1x32000
  bcast_S_S8x1024 : S_.BroadcastsInDim S8x1024 (![] : Fin 0 → Fin S8x1024.rank)
  shapeCasts_S8x1024_S8192x1 : S8x1024.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  shapeCasts_S8192x1_S8x1024 : S8192x1.ShapeCasts S8x1024
  reducesTo_S8x1024_S8_d1 : S8x1024.ReducesTo [1] S8
  h_S_ : 0 < S_.numel
  bcast_S_S8 : S_.BroadcastsInDim S8 (![] : Fin 0 → Fin S8.rank)
  slices_S8_S4_0 : S8.Slices ![0] S4
  slices_S8_S4_4 : S8.Slices ![4] S4
  slices_S8x1024_S4x1024_0_0 : S8x1024.Slices ![0, 0] S4x1024
  reducesTo_S4x1024_S_d0_1 : S4x1024.ReducesTo [0, 1] S_
  bcast_S_S4 : S_.BroadcastsInDim S4 (![] : Fin 0 → Fin S4.rank)
  reducesTo_S4_S_d0 : S4.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32000x2048 : Shape := ⟨2, ![32000, 2048]⟩
abbrev S8x1024x2048 : Shape := ⟨3, ![8, 1024, 2048]⟩
abbrev S8x1024 : Shape := ⟨2, ![8, 1024]⟩
abbrev S32000 : Shape := ⟨1, ![32000]⟩
abbrev S8x1024x32000 : Shape := ⟨3, ![8, 1024, 32000]⟩
abbrev S1x1x32000 : Shape := ⟨3, ![1, 1, 32000]⟩
abbrev S_ : Shape := ⟨0, ![]⟩
abbrev S8x1024x1 : Shape := ⟨3, ![8, 1024, 1]⟩
abbrev S8x1024x1x1 : Shape := ⟨4, ![8, 1024, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x1024 : Shape := ⟨2, ![4, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32000x2048, .f32⟩
  | .hbm, ⟨1, _⟩ => ⟨S8x1024x2048, .f32⟩
  | .hbm, ⟨2, _⟩ => ⟨S8x1024, .i32⟩
  | .hbm, ⟨3, _⟩ => ⟨S32000, .f32⟩
  | .hbm, ⟨4, _⟩ => ⟨S8x1024x32000, .f32⟩
  | .hbm, ⟨5, _⟩ => ⟨S1x1x32000, .f32⟩
  | .hbm, ⟨6, _⟩ => ⟨S8x1024x32000, .f32⟩
  | .hbm, ⟨7, _⟩ => ⟨S8x1024x32000, .f32⟩
  | .hbm, ⟨8, _⟩ => ⟨S_, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024x1, .f32⟩
  | .hbm, ⟨14, _⟩ => ⟨S8x1024x32000, .f32⟩
  | .hbm, ⟨15, _⟩ => ⟨S8x1024x32000, .f32⟩
  | .hbm, ⟨16, _⟩ => ⟨S8x1024x32000, .f32⟩
  | .hbm, ⟨17, _⟩ => ⟨S_, .f32⟩
  | .hbm, ⟨18, _⟩ => ⟨S8x1024, .f32⟩
  | .hbm, ⟨19, _⟩ => ⟨S8x1024x1, .f32⟩
  | .hbm, ⟨20, _⟩ => ⟨S8x1024x1, .f32⟩
  | .hbm, ⟨21, _⟩ => ⟨S8x1024x32000, .f32⟩
  | .hbm, ⟨22, _⟩ => ⟨S8x1024x32000, .f32⟩
  | .hbm, ⟨23, _⟩ => ⟨S_, .i32⟩
  | .hbm, ⟨24, _⟩ => ⟨S_, .i32⟩
  | .hbm, ⟨25, _⟩ => ⟨S8x1024, .i32⟩
  | .hbm, ⟨26, _⟩ => ⟨S8x1024, .i32⟩
  | .hbm, ⟨27, _⟩ => ⟨S8x1024x1, .i32⟩
  | .hbm, ⟨28, _⟩ => ⟨S_, .i32⟩
  | .hbm, ⟨29, _⟩ => ⟨S8x1024x1, .i32⟩
  | .hbm, ⟨30, _⟩ => ⟨S8x1024x1, .i1⟩
  | .hbm, ⟨31, _⟩ => ⟨S_, .i32⟩
  | .hbm, ⟨32, _⟩ => ⟨S8x1024x1, .i32⟩
  | .hbm, ⟨33, _⟩ => ⟨S8x1024x1, .i32⟩
  | .hbm, ⟨34, _⟩ => ⟨S8x1024x1, .i32⟩
  | .hbm, ⟨35, _⟩ => ⟨S8x1024x1x1, .i32⟩
  | .hbm, ⟨36, _⟩ => ⟨S1, .i32⟩
  | .hbm, ⟨37, _⟩ => ⟨S_, .i32⟩
  | .hbm, ⟨38, _⟩ => ⟨S8x1024x1x1, .i32⟩
  | .hbm, ⟨39, _⟩ => ⟨S8x1024x1x1, .i1⟩
  | .hbm, ⟨40, _⟩ => ⟨S1x1x1x1, .i32⟩
  | .hbm, ⟨41, _⟩ => ⟨S8x1024x1x1, .i32⟩
  | .hbm, ⟨42, _⟩ => ⟨S8x1024x1x1, .i1⟩
  | .hbm, ⟨43, _⟩ => ⟨S8x1024x1x1, .i1⟩
  | .hbm, ⟨44, _⟩ => ⟨S_, .i1⟩
  | .hbm, ⟨45, _⟩ => ⟨S8x1024x1, .i1⟩
  | .hbm, ⟨46, _⟩ => ⟨S8x1024x1, .f32⟩
  | .hbm, ⟨47, _⟩ => ⟨S_, .f32⟩
  | .hbm, ⟨48, _⟩ => ⟨S8x1024x1, .f32⟩
  | .hbm, ⟨49, _⟩ => ⟨S8x1024x1, .f32⟩
  | .hbm, ⟨50, _⟩ => ⟨S8x1024, .f32⟩
  | .hbm, ⟨51, _⟩ => ⟨S_, .i32⟩
  | .hbm, ⟨52, _⟩ => ⟨S8x1024, .i32⟩
  | .hbm, ⟨53, _⟩ => ⟨S8x1024, .i1⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S4, .f32⟩
  | .hbm, ⟨65, _⟩ => ⟨S4, .f32⟩
  | .hbm, ⟨66, _⟩ => ⟨S4x1024, .f32⟩
  | .hbm, ⟨67, _⟩ => ⟨S4x1024, .f32⟩
  | .hbm, ⟨68, _⟩ => ⟨S4x1024, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S4, .i1⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_c : Ref sig .tc := ⟨.hbm, 23, rfl⟩
abbrev main_call1_v0 : Ref sig .tc := ⟨.hbm, 24, rfl⟩
abbrev main_call1_v1 : Ref sig .tc := ⟨.hbm, 25, rfl⟩
abbrev main_v5 : Ref sig .tc := ⟨.hbm, 26, rfl⟩
abbrev main_v6 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_cst : Ref sig .tc := ⟨.hbm, 47, rfl⟩
abbrev main_call2_v14 : Ref sig .tc := ⟨.hbm, 48, rfl⟩
abbrev main_v7 : Ref sig .tc := ⟨.hbm, 49, rfl⟩
abbrev main_v8 : Ref sig .tc := ⟨.hbm, 50, rfl⟩
abbrev main_c_0 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_v13 : Ref sig .tc := ⟨.hbm, 57, rfl⟩
abbrev main_cst_1 : Ref sig .tc := ⟨.hbm, 58, rfl⟩
abbrev main_v14 : Ref sig .tc := ⟨.hbm, 59, rfl⟩
abbrev main_cst_2 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24 : Ref sig .tc := ⟨.hbm, 71, rfl⟩
abbrev main_cst_4 : Ref sig .tc := ⟨.hbm, 72, rfl⟩
abbrev main_v25 : Ref sig .tc := ⟨.hbm, 73, rfl⟩
abbrev main_cst_5 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1 : Ref sig .tc := ⟨.hbm, 100, rfl⟩
abbrev main_v37 : Ref sig .tc := ⟨.hbm, 101, rfl⟩
abbrev main_cst_6 : Ref sig .tc := ⟨.hbm, 102, rfl⟩
abbrev main_v38 : Ref sig .tc := ⟨.hbm, 103, rfl⟩
abbrev main_cst_7 : Ref sig .tc := ⟨.hbm, 104, rfl⟩
abbrev main_v39 : Ref sig .tc := ⟨.hbm, 105, rfl⟩
abbrev main_cst_8 : Ref sig .tc := ⟨.hbm, 106, rfl⟩
abbrev main_v40 : Ref sig .tc := ⟨.hbm, 107, rfl⟩
abbrev main_v41 : Ref sig .tc := ⟨.hbm, 108, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x1024x32000_0_1_2 : S1x1x32000.BroadcastsInDim S8x1024x32000 (![0, 1, 2] : Fin 3 → Fin S8x1024x32000.rank)
  reducesTo_S8x1024x32000_S8x1024_d2 : S8x1024x32000.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  reducesTo_S8x1024_S8_d1 : S8x1024.ReducesTo [1] S8
  bcast_S_S8 : S_.BroadcastsInDim S8 (![] : Fin 0 → Fin S8.rank)
  slices_S8_S4_0 : S8.Slices ![0] S4
  slices_S8_S4_4 : S8.Slices ![4] S4
  slices_S8x1024_S4x1024_0_0 : S8x1024.Slices ![0, 0] S4x1024
  reducesTo_S4x1024_S_d0_1 : S4x1024.ReducesTo [0, 1] S_
  bcast_S_S4 : S_.BroadcastsInDim S4 (![] : Fin 0 → Fin S4.rank)
  reducesTo_S4_S_d0 : S4.ReducesTo [0] S_
  dot_S8x1024x2048_S32000x2048_S8x1024x32000_2_1_01_0_n_n_wf : DotDims.WF S8x1024x2048 S32000x2048 S8x1024x32000 [2] [1] [0, 1] [0] [] []
  gather_S8x1024x32000_S8x1024x1x1_S8x1024x1_n_2_01_01_2_3_111_wf : GatherDims.WF S8x1024x32000 S8x1024x1x1 S8x1024x1 [] [2] [0, 1] [2] [0, 1] 3 ![1, 1, 1]

variable [Facts₀]

def dot_S8x1024x2048_S32000x2048_S8x1024x32000_2_1_01_0_n_n : DotDims S8x1024x2048 S32000x2048 S8x1024x32000 where
  lhsContracting := [2]
  rhsContracting := [1]
  lhsNonContracting := [0, 1]
  rhsNonContracting := [0]
  lhsBatch := []
  rhsBatch := []
  wf := dot_S8x1024x2048_S32000x2048_S8x1024x32000_2_1_01_0_n_n_wf
def gather_S8x1024x32000_S8x1024x1x1_S8x1024x1_n_2_01_01_2_3_111 : GatherDims S8x1024x32000 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x32000_S8x1024x1x1_S8x1024x1_n_2_01_01_2_3_111_wf

class Facts : Prop extends Facts₀ where

variable [Facts]
-- ==== Proof.Spec.lean ====
/-
  The mathematics both programs compute, stated once over the argument arrays.

  For a token (b, t) the LOGITS are ℓ(v) = ∑ₕ x[b,t,h] · w[v,h] + bias[v], v < 32000. The per-token log-probability is
  the log-softmax of ℓ read at the clipped target: (ℓ(T) − M) − log ∑ᵥ exp(ℓ(v) − M) with M = maxᵥ ℓ(v).
  The streaming form visits the 32000 columns in 25 chunks of 1280, keeping a running maximum, a running sum of
  exponentials relative to it, and the target's logit picked by a one-hot test; it ends with T-logit − (M + log S).
  Everything after the per-token values (masking by target ≠ −100, per-sequence means, the odds-ratio term) is ONE
  function of those values and of the targets: `tail`.
-/
import Idealize.ShloMosaic.PureOps
import Idealize.ShloMosaic.PureOps.Ideal
import Idealize.ShloMosaic.Lib.ValueIdx

noncomputable section

namespace Cert.Spec

open Idealize.ShloMosaic
open scoped BigOperators

abbrev S32000x2048 : Shape := ⟨2, ![32000, 2048]⟩
abbrev S8x1024x2048 : Shape := ⟨3, ![8, 1024, 2048]⟩
abbrev S8x1024 : Shape := ⟨2, ![8, 1024]⟩
abbrev S32000 : Shape := ⟨1, ![32000]⟩
abbrev S_ : Shape := ⟨0, ![]⟩
abbrev S8 : Shape := ⟨1, ![8]⟩
abbrev S4 : Shape := ⟨1, ![4]⟩
abbrev S4x1024 : Shape := ⟨2, ![4, 1024]⟩

/-! ## The per-token log-probability -/

/-- The logits of token (b, t): its row of the input against every row of the weight, plus the bias. -/
def logits (A0 : FVec Ideal S32000x2048 .f32) (A1 : FVec Ideal S8x1024x2048 .f32) (A3 : FVec Ideal S32000 .f32)
    (b : Fin 8) (t : Fin 1024) (v : Fin 32000) : EReal :=
  (∑ h : Fin 2048, A1 (ValueIdx.ix3 b t h) * A0 (ValueIdx.ix2 v h)) + A3 (ValueIdx.ix1 v)

/-- A target word clipped into the vocabulary: negative words to 0, words past the end to 31999. -/
def clipT (w : BitVec 32) : ℕ := (min (max w.toInt 0) 31999).toNat

theorem clipT_lt (w : BitVec 32) : clipT w < 32000 := by
  unfold clipT; omega

/-- The clipped target as a column index. -/
def tgtIdx (w : BitVec 32) : Fin 32000 := ⟨clipT w, clipT_lt w⟩

/-- The largest of a row of logits (−∞ for no column). -/
def rowMax (ℓ : Fin 32000 → EReal) : EReal := (Finset.univ : Finset (Fin 32000)).fold max ⊥ ℓ

/-- Log-softmax of a row of logits read at column `T`. -/
def logp (ℓ : Fin 32000 → EReal) (T : Fin 32000) : EReal :=
  (ℓ T - rowMax ℓ) - Ideal.log (∑ v : Fin 32000, Ideal.exp (ℓ v - rowMax ℓ))

/-- The per-token log-probabilities, as an [8, 1024] array of the argument arrays. -/
def ptl (A0 : FVec Ideal S32000x2048 .f32) (A1 : FVec Ideal S8x1024x2048 .f32) (A2 : IVec S8x1024 32)
    (A3 : FVec Ideal S32000 .f32) : FVec Ideal S8x1024 .f32 :=
  fun i => logp (logits A0 A1 A3 (i 0) (i 1)) (tgtIdx (A2 i))

/-! ## The streaming form -/

/-- What the stream keeps per row: the running maximum, the running sum of exponentials relative to it, and the
    target's logit picked so far. -/
structure Acc where
  mx : EReal
  se : EReal
  tl : EReal

/-- Before the first chunk: maximum −∞, both sums 0. -/
def Acc.init : Acc := ⟨⊥, 0, 0⟩

/-- One chunk of 1280 logits `L`, its columns starting at `base`, against target column `T`. -/
def Acc.step (s : Acc) (L : Fin 1280 → EReal) (base T : ℕ) : Acc :=
  let mx' := max s.mx ((Finset.univ : Finset (Fin 1280)).fold max ⊥ L)
  ⟨mx', s.se * Ideal.exp (s.mx - mx') + ∑ j : Fin 1280, Ideal.exp (L j - mx'),
    s.tl + ∑ j : Fin 1280, if base + j.val = T then L j else 0⟩

/-- The stream after chunks 0 … k of a row whose logit at column `v` is `ℓ v`. -/
def Acc.run (ℓ : ℕ → EReal) (T : ℕ) : ℕ → Acc
  | 0 => Acc.init.step (fun j => ℓ (0 * 1280 + j.val)) (0 * 1280) T
  | k + 1 => (Acc.run ℓ T k).step (fun j => ℓ ((k + 1) * 1280 + j.val)) ((k + 1) * 1280) T

/-- What the stream reports at the end. -/
def Acc.out (s : Acc) : EReal := s.tl - (s.mx + Ideal.log s.se)

/-- A row of logits as a function of a natural column (0 past the vocabulary). -/
def ext (ℓ : Fin 32000 → EReal) (v : ℕ) : EReal := if h : v < 32000 then ℓ ⟨v, h⟩ else 0

/-! ## The admissible inputs -/

/-- What the precondition says of the argument arrays: every float entry is a real number, and no target word
    exceeds 31999 as a signed integer. -/
structure Admissible (A0 : FVec Ideal S32000x2048 .f32) (A1 : FVec Ideal S8x1024x2048 .f32) (A2 : IVec S8x1024 32)
    (A3 : FVec Ideal S32000 .f32) : Prop where
  real0 : ∀ i, ∃ r : ℝ, A0 i = (r : EReal)
  real1 : ∀ i, ∃ r : ℝ, A1 i = (r : EReal)
  real3 : ∀ i, ∃ r : ℝ, A3 i = (r : EReal)
  tgt_le : ∀ i, (A2 i).toInt ≤ 31999

/-! ## Everything after the per-token values -/

theorem bcast_S_S8x1024 : S_.BroadcastsInDim S8x1024 (![] : Fin 0 → Fin S8x1024.rank) := by decide
theorem reducesTo_S8x1024_S8_d1 : S8x1024.ReducesTo [1] S8 := by decide
theorem h_S_ : 0 < S_.numel := by decide
theorem bcast_S_S8 : S_.BroadcastsInDim S8 (![] : Fin 0 → Fin S8.rank) := by decide
theorem slices_S8_S4_0 : S8.Slices ![0] S4 := by decide
theorem slices_S8_S4_4 : S8.Slices ![4] S4 := by decide
theorem slices_S8x1024_S4x1024_0_0 : S8x1024.Slices ![0, 0] S4x1024 := by decide
theorem reducesTo_S4x1024_S_d0_1 : S4x1024.ReducesTo [0, 1] S_ := by decide
theorem bcast_S_S4 : S_.BroadcastsInDim S4 (![] : Fin 0 → Fin S4.rank) := by decide
theorem reducesTo_S4_S_d0 : S4.ReducesTo [0] S_ := by decide

/-- The loss from the per-token log-probabilities `p` and the targets `tg`: the mask target ≠ −100, the masked mean
    per sequence, the negative masked mean over the first four sequences, and −0.1 · ∑ log σ(log-odds) / 4 over the
    four (chosen, rejected) pairs. -/
def tail (p : FVec Ideal S8x1024 .f32) (tg : IVec S8x1024 32) : FVec Ideal S_ .f32 :=
  let c100 : IVec S_ 32 := constantI S_ 32 4294967196#32
  let v8 : IVec S8x1024 32 := broadcastInDim S8x1024 ![] bcast_S_S8x1024 c100
  let v9 : IVec S8x1024 1 := cmpi .ne tg v8
  let v10 : FVec Ideal S8x1024 .f32 := uitofp .f32 v9
  let v11 : FVec Ideal S8x1024 .f32 := mulf p v10
  let cst : FVec Ideal S_ .f32 := constant S_ .f32 0x00000000#32
  let v12 : FVec Ideal S8 .f32 := Host.reduceAdd v11 cst reducesTo_S8x1024_S8_d1 h_S_
  let v13 : FVec Ideal S8 .f32 := Host.reduceAdd v10 cst reducesTo_S8x1024_S8_d1 h_S_
  let one : FVec Ideal S_ .f32 := constant S_ .f32 0x3F800000#32
  let v14 : FVec Ideal S8 .f32 := broadcastInDim S8 ![] bcast_S_S8 one
  let v15 : FVec Ideal S8 .f32 := maximumf v13 v14
  let v16 : FVec Ideal S8 .f32 := Host.divf v12 v15
  let v17 : FVec Ideal S4 .f32 := extractStridedSlice S4 ![0] v16 slices_S8_S4_0
  let v18 : FVec Ideal S4 .f32 := extractStridedSlice S4 ![4] v16 slices_S8_S4_4
  let v19 : FVec Ideal S4x1024 .f32 := extractStridedSlice S4x1024 ![0, 0] v10 slices_S8x1024_S4x1024_0_0
  let v20 : FVec Ideal S4x1024 .f32 := extractStridedSlice S4x1024 ![0, 0] p slices_S8x1024_S4x1024_0_0
  let v21 : FVec Ideal S4x1024 .f32 := mulf v20 v19
  let v22 : FVec Ideal S_ .f32 := Host.reduceAdd v21 cst reducesTo_S4x1024_S_d0_1 h_S_
  let v23 : FVec Ideal S_ .f32 := Host.negf v22
  let v24 : FVec Ideal S_ .f32 := Host.reduceAdd v19 cst reducesTo_S4x1024_S_d0_1 h_S_
  let v25 : FVec Ideal S_ .f32 := maximumf v24 one
  let v26 : FVec Ideal S_ .f32 := Host.divf v23 v25
  let v27 : FVec Ideal S4 .f32 := subf v17 v18
  let v28 : FVec Ideal S4 .f32 := Host.exp v17
  let v29 : FVec Ideal S4 .f32 := Host.negf v28
  let v30 : FVec Ideal S4 .f32 := Host.log1p v29
  let v31 : FVec Ideal S4 .f32 := Host.exp v18
  let v32 : FVec Ideal S4 .f32 := Host.negf v31
  let v33 : FVec Ideal S4 .f32 := Host.log1p v32
  let v34 : FVec Ideal S4 .f32 := subf v30 v33
  let v35 : FVec Ideal S4 .f32 := subf v27 v34
  let ls0 : FVec Ideal S4 .f32 := Host.negf v35
  let sp0 : FVec Ideal S4 .f32 := broadcastInDim S4 ![] bcast_S_S4 cst
  let sp1 : FVec Ideal S4 .f32 := maximumf ls0 sp0
  let sp3 : FVec Ideal S4 .f32 := subf ls0 sp0
  let sp4 : IVec S4 1 := cmpf .une sp3 sp3
  let sp6 : FVec Ideal S4 .f32 := addf ls0 sp0
  let sp7 : FVec Ideal S4 .f32 := Host.absf sp3
  let sp8 : FVec Ideal S4 .f32 := Host.negf sp7
  let sp9 : FVec Ideal S4 .f32 := Host.exp sp8
  let sp10 : FVec Ideal S4 .f32 := Host.log1p sp9
  let sp11 : FVec Ideal S4 .f32 := addf sp1 sp10
  let sp12 : FVec Ideal S4 .f32 := select sp4 sp6 sp11
  let v36 : FVec Ideal S4 .f32 := Host.negf sp12
  let v37 : FVec Ideal S_ .f32 := Host.reduceAdd v36 cst reducesTo_S4_S_d0 h_S_
  let cm : FVec Ideal S_ .f32 := constant S_ .f32 0xBDCCCCCD#32
  let v38 : FVec Ideal S_ .f32 := mulf cm v37
  let c4 : FVec Ideal S_ .f32 := constant S_ .f32 0x40800000#32
  let v39 : FVec Ideal S_ .f32 := Host.divf v38 c4
  addf v26 v39

end Cert.Spec

end
-- ==== Proof.KRowPieces.lean ====
/-
  What each control case of the kernel body leaves in the three carried buffers and, at a tile's last chunk, in the output
  block, as the body's own arithmetic: each buffer is stored whole, so what it ends holding is the last store's value, and
  every value loaded on the way is either an input block, a buffer's old contents, or (at a tile's first chunk) the reset
  value stored just before. Stated for every float instance.
-/
import proofs.«404955_j35150012350893_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KPieces

open Cert.KernelIdeal Cert.KernelIdeal.Gen

variable {F : FTy → Type} [FloatOps F]

theorem hz : (![0, 0] : Fin 2 → Nat) = fun _ => 0 := funext fun a => by fin_cases a <;> rfl

/-- At a tile's first chunk the maximum buffer ends at the new maximum taken from the reset value. -/
theorem pieceA0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1x1280 .f32) (x3 : Vec F S1024x1 .i32) :
    sout0_A_0 c i arg2 harg2 arg3 harg3 arg4 harg4 arg5 harg5 arg6 harg6 arg7 harg7 arg8 harg8 arg9 harg9 hc0 hc1 x0 x1 x2 x3 = k0_pay2 (k0_pay9 x0 x1 x2 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- At a tile's first chunk the sum buffer ends at the rescaled reset sum plus the chunk's exponentials. -/
theorem pieceA1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1x1280 .f32) (x3 : Vec F S1024x1 .i32) :
    sout0_A_1 c i arg2 harg2 arg3 harg3 arg4 harg4 arg5 harg5 arg6 harg6 arg7 harg7 arg8 harg8 arg9 harg9 hc0 hc1 x0 x1 x2 x3 = k0_pay1 (k0_pay7 x0 x1 x2) (k0_pay9 x0 x1 x2 (k0_pay4 (F := F))) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- At a tile's first chunk the target-logit buffer ends at the reset value plus the chunk's picked logit. -/
theorem pieceA2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1x1280 .f32) (x3 : Vec F S1024x1 .i32) :
    sout0_A_2 c i arg2 harg2 arg3 harg3 arg4 harg4 arg5 harg5 arg6 harg6 arg7 harg7 arg8 harg8 arg9 harg9 hc0 hc1 x0 x1 x2 x3 = k0_pay8 i x0 x1 x2 x3 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- The maximum buffer ends at the new maximum taken from the old one. -/
theorem pieceB0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 hc0 hc1 x0 x1 x2 x3 xs0 xs1 xs2 = k0_pay2 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- The sum buffer ends at the rescaled old sum plus the chunk's exponentials. -/
theorem pieceB1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay7 x0 x1 x2) (k0_pay9 x0 x1 x2 xs0) xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- The target-logit buffer ends at the old value plus the chunk's picked logit. -/
theorem pieceB2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 hc0 hc1 x0 x1 x2 x3 xs0 xs1 xs2 = k0_pay8 i x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- The maximum buffer ends at the new maximum taken from the old one. -/
theorem pieceC0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 hc0 hc1 x0 x1 x2 x3 xs0 xs1 xs2 = k0_pay2 (k0_pay9 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- The sum buffer ends at the rescaled old sum plus the chunk's exponentials. -/
theorem pieceC1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay7 x0 x1 x2) (k0_pay9 x0 x1 x2 xs0) xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- The target-logit buffer ends at the old value plus the chunk's picked logit. -/
theorem pieceC2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 hc0 hc1 x0 x1 x2 x3 xs0 xs1 xs2 = k0_pay8 i x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

/-- At a tile's last chunk the output block is the report computed from the three buffers' new values. -/
theorem pieceCout (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1x1280 .f32) (x3 : Vec F S1024x1 .i32) (xs0 : Vec F S1024x1 .f32) (xs1 : Vec F S1024x1 .f32) (xs2 : Vec F S1024x1 .f32) :
    out0_C_4 c i arg2 harg2 arg3 harg3 arg4 harg4 arg5 harg5 arg6 harg6 arg7 harg7 arg8 harg8 arg9 harg9 hc0 hc1 x0 x1 x2 x3 xs0 xs1 xs2 = k0_pay3 (k0_pay8 i x0 x1 x2 x3 xs2) (k0_pay2 (k0_pay9 x0 x1 x2 xs0)) (k0_pay1 (k0_pay7 x0 x1 x2) (k0_pay9 x0 x1 x2 xs0) xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S1280x2048) hz, View.ld_unit_zero (S := S1x1280) hz, View.readCov_unit_zero (S := S1024x1) _ hz]

end Cert.KernelIdeal.KPieces

end
-- ==== Proof.KRowPay.lean ====
/-
  The kernel body's arithmetic read at one row, at the ideal values: the logits block x·wᵀ + bias entry by entry (the
  product's contraction re-indexed by its one coordinate), a lane reduction kept as a column read at row q (the sum, or
  the largest, of the row), the one-hot test "base column + lane = target word" as an equation of numbers, and from
  these the three values the body stores — new maximum, new sum of exponentials, new picked target logit — which at row
  q are one step of the stream over the row's logits.
-/
import proofs.«404955_j35150012350893_2_alg».proof.Proof.Gen.KernelIdeal.Skeleton
import proofs.«404955_j35150012350893_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.SL.Sem
open Idealize.ShloMosaic.ValueIdx
open scoped BigOperators

namespace Cert.KernelIdeal.KPay

open Cert.KernelIdeal Cert.KernelIdeal.Gen

/-! ## Two keepdims layout reads -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The logits block -/

/-- The contraction record of the block's product: rows of the input block against rows of the weight block. -/
abbrev DD := dot_S1024x2048_S1280x2048_S1024x1280_1_1_0_0_n_n

theorem lhs_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl

theorem lhs_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q

theorem rhs_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl

theorem rhs_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The product into the zero splat, read at (q, j): row q of the left block against row j of the right one. -/
theorem mm_apply (x0 : FVec Ideal S1024x2048 .bf16) (x1 : FVec Ideal S1280x2048 .bf16) (q : Fin 1024) (j : Fin 1280) :
    matmul DD none x0 x1 (constant (F := Ideal) S1024x1280 .f32 0x00000000#32) (ix2 q j)
      = ∑ h : Fin 2048, x0 (ix2 q h) * x1 (ix2 j h) := by
  refine (Ideal.matmul_constant_zero_apply DD none x0 x1 (ix2 q j)).trans ?_
  rw [← Equiv.sum_comp (contrEquiv1 DD 2048 rfl rfl).symm]
  refine Finset.sum_congr rfl fun k _ => ?_
  have hk := contrEquiv1_symm_val DD 2048 rfl rfl k
  have el : DD.lhsIdx (ix2 q j) ((contrEquiv1 DD 2048 rfl rfl).symm k) = ix2 q k := funext fun a => Fin.ext (by
    match a with
    | ⟨0, _⟩ => exact lhs_0 _ _
    | ⟨1, _⟩ => exact (lhs_1 _ _).trans hk)
  have er : DD.rhsIdx (ix2 q j) ((contrEquiv1 DD 2048 rfl rfl).symm k) = ix2 j k := funext fun a => Fin.ext (by
    match a with
    | ⟨0, _⟩ => exact rhs_0 _ _
    | ⟨1, _⟩ => exact (rhs_1 _ _).trans hk)
  rw [el, er]

/-- The logits block at (q, j): row q of the input block against row j of the weight block, plus the bias at j. -/
theorem pay7_apply (x0 : Vec Ideal S1024x2048 .bf16) (x1 : Vec Ideal S1280x2048 .bf16) (x2 : Vec Ideal S1x1280 .f32)
    (q : Fin 1024) (j : Fin 1280) :
    k0_pay7 (F := Ideal) x0 x1 x2 (ix2 q j) = (∑ h : Fin 2048, x0 (ix2 q h) * x1 (ix2 j h)) + x2 (ix2 0 j) := by
  unfold k0_pay7
  simp only [shapeCast_self]
  refine (addf_apply _ _ (ix2 q j)).trans ?_
  refine congrArg₂ (· + ·) (mm_apply x0 x1 q j) ?_
  exact broadcastTo_1b_ab_apply x2 broadcasts_S1x1280_S1024x1280 q j

/-- Row q, column j of the logits block as a function of the three input blocks. -/
def rowLogit (x0 : Vec Ideal S1024x2048 .bf16) (x1 : Vec Ideal S1280x2048 .bf16) (x2 : Vec Ideal S1x1280 .f32)
    (q : Fin 1024) (j : Fin 1280) : EReal :=
  (∑ h : Fin 2048, x0 (ix2 q h) * x1 (ix2 j h)) + x2 (ix2 0 j)

theorem pay7_row (x0 : Vec Ideal S1024x2048 .bf16) (x1 : Vec Ideal S1280x2048 .bf16) (x2 : Vec Ideal S1x1280 .f32)
    (q : Fin 1024) (j : Fin 1280) : k0_pay7 (F := Ideal) x0 x1 x2 (ix2 q j) = rowLogit x0 x1 x2 q j :=
  pay7_apply x0 x1 x2 q j

/-! ## The lane reductions: row q of a [1024, 1280] block -/

/-- The source index of a lane reduction's result row q at lane k is (q, k). -/
theorem lift_eq (q : Fin 1024) (k : Fin 1280) : reduces_S1024x1280_S1024.lift (ix1 q) k = ix2 q k :=
  funext fun a => Fin.ext (by match a with | ⟨0, _⟩ => rfl | ⟨1, _⟩ => rfl)

/-- The −∞ word is the bottom of the extended reals. -/
theorem ofBits_neg_inf : Ideal.ofBits .f32 0xFF800000#32 = ⊥ := by simp [Ideal.ofBits, Ideal.ieee]

/-- The lane sum kept as a column, at row q: the sum of row q. -/
theorem rowSum_apply (src : FVec Ideal S1024x1280 .f32) (q : Fin 1024) :
    shapeCast S1024x1 (multiReduction (F := Ideal) .add [1] S1024 src 0x00000000#32 reduces_S1024x1280_S1024 (.inl rfl) rfl)
        shapeCasts_S1024_S1024x1 (ix2 q 0) = ∑ j : Fin 1280, src (ix2 q j) := by
  refine (shapeCast_a_a1_apply _ shapeCasts_S1024_S1024x1 q 0).trans ?_
  refine (Ideal.multiReduction_add_single src 0x00000000#32 reduces_S1024x1280_S1024 (.inl rfl) rfl (ix1 q)).trans ?_
  exact Finset.sum_congr rfl fun k _ => congrArg src (lift_eq q k)

/-- The lane maximum kept as a column, at row q: the largest of row q (−∞ for no lane). -/
theorem rowMax_apply (src : FVec Ideal S1024x1280 .f32) (q : Fin 1024) :
    shapeCast S1024x1 (multiReduction (F := Ideal) .maximumf [1] S1024 src 0xFF800000#32 reduces_S1024x1280_S1024 (.inl rfl) rfl)
        shapeCasts_S1024_S1024x1 (ix2 q 0) = (Finset.univ : Finset (Fin 1280)).fold max ⊥ (fun j => src (ix2 q j)) := by
  refine (shapeCast_a_a1_apply _ shapeCasts_S1024_S1024x1 q 0).trans ?_
  refine (Ideal.multiReduction_maximumf_single src 0xFF800000#32 reduces_S1024x1280_S1024 (.inl rfl) rfl (ix1 q)).trans ?_
  have hf : (src ∘ reduces_S1024x1280_S1024.lift (ix1 q)) = fun j : Fin 1280 => src (ix2 q j) :=
    funext fun k => congrArg src (lift_eq q k)
  rw [hf]
  exact congrArg (fun b => (Finset.univ : Finset (Fin 1280)).fold max b (fun j => src (ix2 q j))) ofBits_neg_inf

/-! ## The payloads at row q -/

/-- The new running maximum at row q: the old one against the largest logit of the row. -/
theorem pay9_apply (x0 : Vec Ideal S1024x2048 .bf16) (x1 : Vec Ideal S1280x2048 .bf16) (x2 : Vec Ideal S1x1280 .f32)
    (v31 : Vec Ideal S1024x1 .f32) (q : Fin 1024) :
    k0_pay9 (F := Ideal) x0 x1 x2 v31 (ix2 q 0)
      = max (v31 (ix2 q 0)) ((Finset.univ : Finset (Fin 1280)).fold max ⊥ (rowLogit x0 x1 x2 q)) := by
  unfold k0_pay9
  refine (maximumf_apply _ _ (ix2 q 0)).trans ?_
  refine congrArg (max (v31 (ix2 q 0))) ?_
  refine (rowMax_apply (k0_pay7 (F := Ideal) x0 x1 x2) q).trans ?_
  exact congrArg (fun f => (Finset.univ : Finset (Fin 1280)).fold max ⊥ f) (funext fun j => pay7_row x0 x1 x2 q j)

/-- The new sum of exponentials at row q: the old sum rescaled from the old maximum to the new one, plus the row's
    exponentials relative to the new maximum. -/
theorem pay1_apply (v11 : FVec Ideal S1024x1280 .f32) (v32 : FVec Ideal S1024x1 .f32) (v33 : Vec Ideal S1024x1 .f32)
    (v36 : Vec Ideal S1024x1 .f32) (q : Fin 1024) :
    k0_pay1 (F := Ideal) v11 v32 v33 v36 (ix2 q 0)
      = v36 (ix2 q 0) * Ideal.exp (v33 (ix2 q 0) - v32 (ix2 q 0))
        + ∑ j : Fin 1280, Ideal.exp (v11 (ix2 q j) - v32 (ix2 q 0)) := by
  unfold k0_pay1
  simp only [shapeCast_self]
  refine (addf_apply _ _ (ix2 q 0)).trans ?_
  refine congrArg₂ (· + ·) rfl ?_
  refine (rowSum_apply _ q).trans ?_
  refine Finset.sum_congr rfl fun j _ => ?_
  show Ideal.exp (v11 (ix2 q j) - broadcastTo S1024x1280 v32 broadcasts_S1024x1_S1024x1280 (ix2 q j)) = _
  rw [broadcastTo_a1_ab_apply v32 broadcasts_S1024x1_S1024x1280 q j]

/-- Base column n·1280 plus lane j, as 32-bit words, meets the target word exactly when the numbers meet: n < 25 and
    j < 1280 keep the sum far below 2³². -/
theorem onehot {α : Type} (n j : ℕ) (hn : n < 25) (hj : j < 1280) (w : BitVec 32) (a b : α) :
    Scalar.select (IntOp.cmpi .eq (IntOp.addi (Scalar.muli (BitVec.ofNat 32 n) 1280#32) (BitVec.ofNat 32 j)) w) a b
      = if n * 1280 + j = w.toNat then a else b := by
  have hx : (IntOp.addi (Scalar.muli (BitVec.ofNat 32 n) 1280#32) (BitVec.ofNat 32 j)).toNat = n * 1280 + j := by
    simp only [IntOp.addi, Scalar.muli, IntOp.muli, BitVec.toNat_add, BitVec.toNat_mul, BitVec.toNat_ofNat]
    omega
  unfold Scalar.select IntOp.cmpi
  by_cases h : n * 1280 + j = w.toNat
  · have e : IntOp.addi (Scalar.muli (BitVec.ofNat 32 n) 1280#32) (BitVec.ofNat 32 j) = w := BitVec.eq_of_toNat_eq (hx.trans h)
    rw [if_pos h, e]
    simp
  · have e : ¬IntOp.addi (Scalar.muli (BitVec.ofNat 32 n) 1280#32) (BitVec.ofNat 32 j) = w := fun e => h (by rw [← hx, e])
    have hb : (IntOp.addi (Scalar.muli (BitVec.ofNat 32 n) 1280#32) (BitVec.ofNat 32 j) == w) = false :=
      beq_eq_false_iff_ne.mpr e
    rw [if_neg h]
    simp [hb]

/-- The new picked target logit at row q: the old value plus the row's logit at the lane whose column is the target. -/
theorem pay8_apply (i : grid0.Coords) (x0 : Vec Ideal S1024x2048 .bf16) (x1 : Vec Ideal S1280x2048 .bf16)
    (x2 : Vec Ideal S1x1280 .f32) (v16 : Vec Ideal S1024x1 .i32) (v20 : Vec Ideal S1024x1 .f32) (q : Fin 1024) :
    k0_pay8 (F := Ideal) i x0 x1 x2 v16 v20 (ix2 q 0)
      = v20 (ix2 q 0)
        + ∑ j : Fin 1280, if (i 1).val * 1280 + j.val = (v16 (ix2 q 0)).toNat then rowLogit x0 x1 x2 q j else 0 := by
  have hi : (i 1).val < 25 := (i 1).isLt
  unfold k0_pay8
  simp only [shapeCast_self]
  refine (addf_apply _ _ (ix2 q 0)).trans ?_
  refine congrArg (v20 (ix2 q 0) + ·) ?_
  refine (rowSum_apply _ q).trans ?_
  refine Finset.sum_congr rfl fun j _ => ?_
  show Scalar.select (IntOp.cmpi .eq (IntOp.addi (Scalar.muli (BitVec.ofNat 32 (i 1).val) 1280#32)
        (iota .tc S1024x1280 32 [1] iota_S1024x1280_d1_w32 (ix2 q j)))
        (broadcastTo S1024x1280 v16 broadcasts_S1024x1_S1024x1280 (ix2 q j)))
      (k0_pay7 (F := Ideal) x0 x1 x2 (ix2 q j)) (Ideal.ofBits .f32 0x00000000#32) = _
  rw [iota_single_apply, broadcastTo_a1_ab_apply v16 broadcasts_S1024x1_S1024x1280 q j, pay7_row, Ideal.ofBits_zero_f32]
  exact onehot (i 1).val j.val hi j.isLt (v16 (ix2 q 0)) _ _

/-- The report at an index: target logit − (maximum + log of the sum). -/
theorem pay3_apply (v53 v54 v55 : Vec Ideal S1024x1 .f32) (y : S1024x1.Idx) :
    k0_pay3 (F := Ideal) v53 v54 v55 y = v53 y - (v54 y + Ideal.log (v55 y)) := rfl

/-- What is stored into the maximum buffer is the new maximum itself. -/
theorem pay2_eq (v32 : FVec Ideal S1024x1 .f32) : k0_pay2 (F := Ideal) v32 = v32 := by
  unfold k0_pay2; exact shapeCast_self _ _

/-- The reset values: −∞ for the maximum, 0 for the two sums. -/
theorem pay4_apply (y : S1024x1.Idx) : k0_pay4 (F := Ideal) y = ⊥ := by
  unfold k0_pay4; simp only [shapeCast_self]; exact ofBits_neg_inf
theorem pay5_apply (y : S1024x1.Idx) : k0_pay5 (F := Ideal) y = 0 := by
  unfold k0_pay5; simp only [shapeCast_self]; exact Ideal.ofBits_zero_f32
theorem pay6_apply (y : S1024x1.Idx) : k0_pay6 (F := Ideal) y = 0 := by
  unfold k0_pay6; simp only [shapeCast_self]; exact Ideal.ofBits_zero_f32

/-! ## One step of the stream -/

/-- The three new buffer values at row q, from old values (m, s, t) at row q, are one step of the stream over the row's
    logits. -/
theorem step_eq (i : grid0.Coords) (x0 : Vec Ideal S1024x2048 .bf16) (x1 : Vec Ideal S1280x2048 .bf16)
    (x2 : Vec Ideal S1x1280 .f32) (x3 : Vec Ideal S1024x1 .i32) (m s t : Vec Ideal S1024x1 .f32) (q : Fin 1024) :
    (⟨k0_pay2 (F := Ideal) (k0_pay9 (F := Ideal) x0 x1 x2 m) (ix2 q 0),
      k0_pay1 (F := Ideal) (k0_pay7 (F := Ideal) x0 x1 x2) (k0_pay9 (F := Ideal) x0 x1 x2 m) m s (ix2 q 0),
      k0_pay8 (F := Ideal) i x0 x1 x2 x3 t (ix2 q 0)⟩ : Spec.Acc)
      = (⟨m (ix2 q 0), s (ix2 q 0), t (ix2 q 0)⟩ : Spec.Acc).step (rowLogit x0 x1 x2 q) ((i 1).val * 1280)
          (x3 (ix2 q 0)).toNat := by
  rw [pay2_eq, pay9_apply, pay1_apply, pay9_apply, pay8_apply]
  simp only [pay7_row]
  rfl

end Cert.KernelIdeal.KPay

end
-- ==== Proof.KRow.lean ====
/-
  One grid point of the streaming log-softmax, read row by row: what the body leaves in the three carried
  buffers (running maximum, running sum of exponentials, picked target logit) at row q is one step of the stream
  over row q of the point's logits block x·wᵀ + bias, and at a sequence tile's last chunk the output block holds
  the stream's report.
-/
import proofs.«404955_j35150012350893_2_alg».proof.Proof.Gen.KernelIdeal.Frame
import proofs.«404955_j35150012350893_2_alg».proof.Proof.Spec
import proofs.«404955_j35150012350893_2_alg».proof.Proof.KRowPieces
import proofs.«404955_j35150012350893_2_alg».proof.Proof.KRowPay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.KVal

open Cert.KernelIdeal Cert.KernelIdeal.Gen

/-- Row q, column j of a point's logits block: the row of the input block against row j of the weight block, plus the
    bias block's entry j. -/
def blockLogit (x0 : Vec Ideal S1024x2048 .bf16) (x1 : Vec Ideal S1280x2048 .bf16) (x2 : Vec Ideal S1x1280 .f32)
    (q : Fin 1024) (j : Fin 1280) : EReal :=
  (∑ h : Fin 2048, x0 (ix2 q h) * x1 (ix2 j h)) + x2 (ix2 0 j)

/-- Row q of the three carried buffers as a stream state. -/
def rowAcc (xs0 xs1 xs2 : Vec Ideal S1024x1 .f32) (q : Fin 1024) : Spec.Acc :=
  ⟨xs0 (ix2 q 0), xs1 (ix2 q 0), xs2 (ix2 q 0)⟩

/-- A tile's first chunk: the buffers are reset, then take one step. -/
theorem rowA (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec Ideal S1024x2048 .bf16) (x1 : Vec Ideal S1280x2048 .bf16) (x2 : Vec Ideal S1x1280 .f32) (x3 : Vec Ideal S1024x1 .i32) (q : Fin 1024) :
    rowAcc (sout0_A_0 c i arg2 harg2 arg3 harg3 arg4 harg4 arg5 harg5 arg6 harg6 arg7 harg7 arg8 harg8 arg9 harg9 hc0 hc1 x0 x1 x2 x3) (sout0_A_1 c i arg2 harg2 arg3 harg3 arg4 harg4 arg5 harg5 arg6 harg6 arg7 harg7 arg8 harg8 arg9 harg9 hc0 hc1 x0 x1 x2 x3)
        (sout0_A_2 c i arg2 harg2 arg3 harg3 arg4 harg4 arg5 harg5 arg6 harg6 arg7 harg7 arg8 harg8 arg9 harg9 hc0 hc1 x0 x1 x2 x3) q
      = Spec.Acc.init.step (blockLogit x0 x1 x2 q) ((i 1).val * 1280) (x3 (ix2 q 0)).toNat := by
  unfold rowAcc
  rw [KPieces.pieceA0 (F := Ideal) c i arg2 harg2 arg3 harg3 arg4 harg4 arg5 harg5 arg6 harg6 arg7 harg7 arg8 harg8 arg9 harg9 hc0 hc1 x0 x1 x2 x3, KPieces.pieceA1 (F := Ideal) c i arg2 harg2 arg3 harg3 arg4 harg4 arg5 harg5 arg6 harg6 arg7 harg7 arg8 harg8 arg9 harg9 hc0 hc1 x0 x1 x2 x3, KPieces.pieceA2 (F := Ideal) c i arg2 harg2 arg3 harg3 arg4 harg4 arg5 harg5 arg6 harg6 arg7 harg7 arg8 harg8 arg9 harg9 hc0 hc1 x0 x1 x2 x3]
  refine (KPay.step_eq i x0 x1 x2 x3 (k0_pay4 (F := Ideal)) (k0_pay5 (F := Ideal)) (k0_pay6 (F := Ideal)) q).trans ?_
  rw [KPay.pay4_apply, KPay.pay5_apply, KPay.pay6_apply]
  rfl

/-- A middle chunk: one step from what the chunk before left. -/
theorem rowB (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec Ideal S1024x2048 .bf16) (x1 : Vec Ideal S1280x2048 .bf16) (x2 : Vec Ideal S1x1280 .f32) (x3 : Vec Ideal S1024x1 .i32) (xs0 : Vec Ideal S1024x1 .f32) (xs1 : Vec Ideal S1024x1 .f32) (xs2 : Vec Ideal S1024x1 .f32) (q : Fin 1024) :
    rowAcc (sout0_B_0 c i arg2 harg2 arg3 harg3 arg4 harg4 arg5 harg5 arg6 harg6 arg7 harg7 arg8 harg8 arg9 harg9 hc0 hc1 x0 x1 x2 x3 xs0 xs1 xs2) (sout0_B_1 c i arg2 harg2 arg3 harg3 arg4 harg4 arg5 harg5 arg6 harg6 arg7 harg7 arg8 harg8 arg9 harg9 hc0 hc1 x0 x1 x2 x3 xs0 xs1 xs2)
        (sout0_B_2 c i arg2 harg2 arg3 harg3 arg4 harg4 arg5 harg5 arg6 harg6 arg7 harg7 arg8 harg8 arg9 harg9 hc0 hc1 x0 x1 x2 x3 xs0 xs1 xs2) q
      = (rowAcc xs0 xs1 xs2 q).step (blockLogit x0 x1 x2 q) ((i 1).val * 1280) (x3 (ix2 q 0)).toNat := by
  unfold rowAcc
  rw [KPieces.pieceB0 (F := Ideal) c i arg2 harg2 arg3 harg3 arg4 harg4 arg5 harg5 arg6 harg6 arg7 harg7 arg8 harg8 arg9 harg9 hc0 hc1 x0 x1 x2 x3 xs0 xs1 xs2, KPieces.pieceB1 (F := Ideal) c i arg2 harg2 arg3 harg3 arg4 harg4 arg5 harg5 arg6 harg6 arg7 harg7 arg8 harg8 arg9 harg9 hc0 hc1 x0 x1 x2 x3 xs0 xs1 xs2, KPieces.pieceB2 (F := Ideal) c i arg2 harg2 arg3 harg3 arg4 harg4 arg5 harg5 arg6 harg6 arg7 harg7 arg8 harg8 arg9 harg9 hc0 hc1 x0 x1 x2 x3 xs0 xs1 xs2]
  exact KPay.step_eq i x0 x1 x2 x3 xs0 xs1 xs2 q

/-- The last chunk: the same step, -/
theorem rowC (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec Ideal S1024x2048 .bf16) (x1 : Vec Ideal S1280x2048 .bf16) (x2 : Vec Ideal S1x1280 .f32) (x3 : Vec Ideal S1024x1 .i32) (xs0 : Vec Ideal S1024x1 .f32) (xs1 : Vec Ideal S1024x1 .f32) (xs2 : Vec Ideal S1024x1 .f32) (q : Fin 1024) :
    rowAcc (sout0_C_0 c i arg2 harg2 arg3 harg3 arg4 harg4 arg5 harg5 arg6 harg6 arg7 harg7 arg8 harg8 arg9 harg9 hc0 hc1 x0 x1 x2 x3 xs0 xs1 xs2) (sout0_C_1 c i arg2 harg2 arg3 harg3 arg4 harg4 arg5 harg5 arg6 harg6 arg7 harg7 arg8 harg8 arg9 harg9 hc0 hc1 x0 x1 x2 x3 xs0 xs1 xs2)
        (sout0_C_2 c i arg2 harg2 arg3 harg3 arg4 harg4 arg5 harg5 arg6 harg6 arg7 harg7 arg8 harg8 arg9 harg9 hc0 hc1 x0 x1 x2 x3 xs0 xs1 xs2) q
      = (rowAcc xs0 xs1 xs2 q).step (blockLogit x0 x1 x2 q) ((i 1).val * 1280) (x3 (ix2 q 0)).toNat := by
  unfold rowAcc
  rw [KPieces.pieceC0 (F := Ideal) c i arg2 harg2 arg3 harg3 arg4 harg4 arg5 harg5 arg6 harg6 arg7 harg7 arg8 harg8 arg9 harg9 hc0 hc1 x0 x1 x2 x3 xs0 xs1 xs2, KPieces.pieceC1 (F := Ideal) c i arg2 harg2 arg3 harg3 arg4 harg4 arg5 harg5 arg6 harg6 arg7 harg7 arg8 harg8 arg9 harg9 hc0 hc1 x0 x1 x2 x3 xs0 xs1 xs2, KPieces.pieceC2 (F := Ideal) c i arg2 harg2 arg3 harg3 arg4 harg4 arg5 harg5 arg6 harg6 arg7 harg7 arg8 harg8 arg9 harg9 hc0 hc1 x0 x1 x2 x3 xs0 xs1 xs2]
  exact KPay.step_eq i x0 x1 x2 x3 xs0 xs1 xs2 q

/-- and the output block takes the stream's report. -/
theorem outC (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1x1280 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec Ideal S1024x2048 .bf16) (x1 : Vec Ideal S1280x2048 .bf16) (x2 : Vec Ideal S1x1280 .f32) (x3 : Vec Ideal S1024x1 .i32) (xs0 : Vec Ideal S1024x1 .f32) (xs1 : Vec Ideal S1024x1 .f32) (xs2 : Vec Ideal S1024x1 .f32) (q : Fin 1024) :
    out0_C_4 c i arg2 harg2 arg3 harg3 arg4 harg4 arg5 harg5 arg6 harg6 arg7 harg7 arg8 harg8 arg9 harg9 hc0 hc1 x0 x1 x2 x3 xs0 xs1 xs2 (ix2 q 0)
      = ((rowAcc xs0 xs1 xs2 q).step (blockLogit x0 x1 x2 q) ((i 1).val * 1280) (x3 (ix2 q 0)).toNat).out := by
  refine (congrFun (KPieces.pieceCout (F := Ideal) c i arg2 harg2 arg3 harg3 arg4 harg4 arg5 harg5 arg6 harg6 arg7 harg7 arg8 harg8 arg9 harg9 hc0 hc1 x0 x1 x2 x3 xs0 xs1 xs2) (ix2 q 0)).trans ?_
  refine (KPay.pay3_apply _ _ _ (ix2 q 0)).trans ?_
  unfold rowAcc
  exact congrArg Spec.Acc.out (KPay.step_eq i x0 x1 x2 x3 xs0 xs1 xs2 q)

end Cert.KernelIdeal.KVal

end
-- ==== Proof.KInv.lean ====
/-
  The kernel's result array, row by row. Grid point t = 25·i + k works on rows 1024·i … 1024·i + 1023 of the input
  and on vocabulary columns 1280·k … 1280·k + 1279; along k the three carried buffers run the streaming log-softmax
  of each row's logits, and the one write-back of tile i (at k = 24) puts the stream's report into rows
  1024·i … of the [8192, 1] result. So row r of the result is the report of the stream over all 25 chunks of row r.
-/
import proofs.«404955_j35150012350893_2_alg».proof.Proof.KRow

noncomputable section

open Idealize.ShloMosaic Idealize.ShloMosaic.TcCoe Idealize.SL.Sem
open Idealize.ShloMosaic.ValueIdx
open Idealize.ShloMosaic.Pipeline (Dat)
open scoped BigOperators

namespace Cert.KernelIdeal.KVal

open Cert.KernelIdeal Cert.KernelIdeal.Gen

variable (m : (ℓ : Loc nD τ sig) → Buf (Elt Ideal) ℓ)

/-- The arrays the region finds, at their literal types: the input rows, the weight, the bias row, the clipped targets. -/
abbrev xArr (c : Dev nD) : Vec Ideal S8192x2048 .bf16 := V m c main_v1
abbrev wArr (c : Dev nD) : Vec Ideal S32000x2048 .bf16 := V m c main_v2
abbrev bArr (c : Dev nD) : Vec Ideal S1x32000 .f32 := V m c main_v3
abbrev tArr (c : Dev nD) : Vec Ideal S8192x1 .i32 := V m c main_v5

/-- Row r's logit at vocabulary column v (0 past the vocabulary), from the arrays the region finds. -/
def rowLogit (c : Dev nD) (r : Fin 8192) (v : ℕ) : EReal :=
  if h : v < 32000 then (∑ hh : Fin 2048, xArr m c (ix2 r hh) * wArr m c (ix2 ⟨v, h⟩ hh)) + bArr m c (ix2 0 ⟨v, h⟩) else 0

/-- Row r's target column, from the clipped-target array the region finds. -/
def rowTgt (c : Dev nD) (r : Fin 8192) : ℕ := (tArr m c (ix2 r 0)).toNat

/-! The steps of the argument, kept in a namespace of their own. -/
namespace Tiles

/-! ## The blocks a grid point works on -/

/-- The input blocks of grid point t, at their literal types: 1024 input rows, 1280 weight rows, 1280 bias entries,
    1024 targets. -/
abbrev xblk (c : Dev nD) (t : Fin cfg0.N) : Vec Ideal S1024x2048 .bf16 := iblk m c 0 t
abbrev wblk (c : Dev nD) (t : Fin cfg0.N) : Vec Ideal S1280x2048 .bf16 := iblk m c 1 t
abbrev bblk (c : Dev nD) (t : Fin cfg0.N) : Vec Ideal S1x1280 .f32 := iblk m c 2 t
abbrev tblk (c : Dev nD) (t : Fin cfg0.N) : Vec Ideal S1024x1 .i32 := iblk m c 3 t

/-- Where the blocks of point t sit: the row blocks (input, targets, result) at block t / 25, the column blocks
    (weight, bias) at block t % 25, which is also the point's second coordinate. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = 0
    ∧ win0_4.index t (0 : Fin 2) = t.val / 25 ∧ win0_4.index t (1 : Fin 2) = 0
    ∧ ((grid0.coords t) 1).val = t.val % 25 :=
  (by decide +kernel : ∀ t : Fin grid0.N, _)

/-- Row q of the sequence tile of point n, as a row of the [8192, ·] arrays. -/
def rowOf (n : ℕ) (hn : n < cfg0.N) (q : Fin 1024) : Fin 8192 :=
  ⟨1024 * (n / 25) + q.val, by have hN : n < 200 := lt_of_lt_of_eq hn (show cfg0.N = 200 from N_0); omega⟩

/-- Column j of the vocabulary chunk of point n is a column of the vocabulary. -/
theorem col_lt (n : ℕ) (j : Fin 1280) : n % 25 * 1280 + j.val < 32000 := by omega

/-- The input block of point t holds rows 1024·(t / 25) … of the input. -/
theorem xblk_apply (c : Dev nD) (t : Fin cfg0.N) (q : Fin 1024) (h : Fin 2048) :
    xblk m c t (ix2 q h) = xArr m c (ix2 (rowOf t.val t.isLt q) h) := by
  obtain ⟨e0, e1, -⟩ := idx_facts t
  unfold xblk iblk
  rw [View.read_apply]
  show V m c main_v1 _ = V m c main_v1 _
  congr 1
  funext a
  apply Fin.ext
  match a with
  | ⟨0, _⟩ => show win0_0.index t 0 * 1024 + 1 * q.val = 1024 * (t.val / 25) + q.val; rw [e0]; omega
  | ⟨1, _⟩ => show win0_0.index t 1 * 2048 + 1 * h.val = h.val; rw [e1]; omega

/-- The weight block of point t holds rows 1280·(t % 25) … of the weight. -/
theorem wblk_apply (c : Dev nD) (t : Fin cfg0.N) (j : Fin 1280) (h : Fin 2048) :
    wblk m c t (ix2 j h) = wArr m c (ix2 ⟨t.val % 25 * 1280 + j.val, col_lt t.val j⟩ h) := by
  obtain ⟨-, -, e0, e1, -⟩ := idx_facts t
  unfold wblk iblk
  rw [View.read_apply]
  show V m c main_v2 _ = V m c main_v2 _
  congr 1
  funext a
  apply Fin.ext
  match a with
  | ⟨0, _⟩ => show win0_1.index t 0 * 1280 + 1 * j.val = t.val % 25 * 1280 + j.val; rw [e0]; omega
  | ⟨1, _⟩ => show win0_1.index t 1 * 2048 + 1 * h.val = h.val; rw [e1]; omega

/-- The bias block of point t holds entries 1280·(t % 25) … of the bias row. -/
theorem bblk_apply (c : Dev nD) (t : Fin cfg0.N) (j : Fin 1280) :
    bblk m c t (ix2 0 j) = bArr m c (ix2 0 ⟨t.val % 25 * 1280 + j.val, col_lt t.val j⟩) := by
  obtain ⟨-, -, -, -, e0, e1, -⟩ := idx_facts t
  unfold bblk iblk
  rw [View.read_apply]
  show V m c main_v3 _ = V m c main_v3 _
  congr 1
  funext a
  apply Fin.ext
  match a with
  | ⟨0, _⟩ => show win0_2.index t 0 * 1 + 1 * 0 = 0; rw [e0]
  | ⟨1, _⟩ => show win0_2.index t 1 * 1280 + 1 * j.val = t.val % 25 * 1280 + j.val; rw [e1]; omega

/-- The target block of point t holds rows 1024·(t / 25) … of the clipped targets. -/
theorem tblk_apply (c : Dev nD) (t : Fin cfg0.N) (q : Fin 1024) :
    tblk m c t (ix2 q 0) = tArr m c (ix2 (rowOf t.val t.isLt q) 0) := by
  obtain ⟨-, -, -, -, -, -, e0, e1, -⟩ := idx_facts t
  unfold tblk iblk
  rw [View.read_apply]
  show V m c main_v5 _ = V m c main_v5 _
  congr 1
  funext a
  apply Fin.ext
  match a with
  | ⟨0, _⟩ => show win0_3.index t 0 * 1024 + 1 * q.val = 1024 * (t.val / 25) + q.val; rw [e0]; omega
  | ⟨1, _⟩ => show win0_3.index t 1 * 1 + 1 * 0 = 0; rw [e1]

/-- So the logits block of point t is rows 1024·(t / 25) … by columns 1280·(t % 25) … of the rows' logits. -/
theorem blockLogit_eq (c : Dev nD) (t : Fin cfg0.N) (q : Fin 1024) (j : Fin 1280) :
    blockLogit (xblk m c t) (wblk m c t) (bblk m c t) q j
      = rowLogit m c (rowOf t.val t.isLt q) (t.val % 25 * 1280 + j.val) := by
  have hs : (∑ h : Fin 2048, xblk m c t (ix2 q h) * wblk m c t (ix2 j h))
      = ∑ h : Fin 2048, xArr m c (ix2 (rowOf t.val t.isLt q) h) * wArr m c (ix2 ⟨t.val % 25 * 1280 + j.val, col_lt t.val j⟩ h) :=
    Finset.sum_congr rfl fun h _ => by rw [xblk_apply m c t q h, wblk_apply m c t j h]
  unfold blockLogit rowLogit
  rw [dif_pos (col_lt t.val j), hs, bblk_apply m c t j]

/-! ## The stream along a sequence tile's 25 points -/

/-- One step over the chunk of point t, read off the arrays: the block's logits are the rows' logits at the chunk's
    columns, the base column is the chunk's first, the target is the row's. -/
theorem step_eq (c : Dev nD) (t : Fin cfg0.N) (q : Fin 1024) (s : Spec.Acc) :
    s.step (blockLogit (xblk m c t) (wblk m c t) (bblk m c t) q) (((grid0.coords t) 1).val * 1280)
        (tblk m c t (ix2 q 0)).toNat
      = s.step (fun j => rowLogit m c (rowOf t.val t.isLt q) (t.val % 25 * 1280 + j.val)) (t.val % 25 * 1280)
          (rowTgt m c (rowOf t.val t.isLt q)) := by
  have hL : blockLogit (xblk m c t) (wblk m c t) (bblk m c t) q
      = fun j => rowLogit m c (rowOf t.val t.isLt q) (t.val % 25 * 1280 + j.val) :=
    funext fun j => blockLogit_eq m c t q j
  have e : ((grid0.coords t) 1).val = t.val % 25 := (idx_facts t).2.2.2.2.2.2.2.2.2.2
  rw [hL, tblk_apply m c t q, e]
  rfl

/-- The same tile: the point before a point that is not a tile's first works on the same rows. -/
theorem rowOf_pred (n : ℕ) (h : n < cfg0.N) (h0 : ¬n % 25 = 0) (q : Fin 1024) :
    rowOf (n - 1) (Nat.lt_of_le_of_lt (Nat.sub_le _ _) h) q = rowOf n h q :=
  Fin.ext (by show 1024 * ((n - 1) / 25) + q.val = 1024 * (n / 25) + q.val; omega)

/-- At a tile's first point the carried buffers hold the stream after chunk 0. -/
theorem inv_A (c : Dev nD) (t : Fin cfg0.N) (h0 : t.val % 25 = 0) (q : Fin 1024) :
    rowAcc (outsAt0 m c t.val t.isLt).2.1 (outsAt0 m c t.val t.isLt).2.2.1 (outsAt0 m c t.val t.isLt).2.2.2 q
      = Spec.Acc.run (rowLogit m c (rowOf t.val t.isLt q)) (rowTgt m c (rowOf t.val t.isLt q)) (t.val % 25) := by
  have h1 : ¬t.val % 25 = 24 := by omega
  rw [outsAt0_A m c t h0 h1]
  dsimp only
  rw [rowA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t) (tblk m c t) q]
  rw [step_eq m c t q, h0]
  rfl

/-- At a middle point they hold one more chunk than the point before left. -/
theorem inv_B (c : Dev nD) (t : Fin cfg0.N) (h0 : ¬t.val % 25 = 0) (h1 : ¬t.val % 25 = 24) (q : Fin 1024)
    (ih : rowAcc (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q
      = Spec.Acc.run (rowLogit m c (rowOf t.val t.isLt q)) (rowTgt m c (rowOf t.val t.isLt q)) ((t.val - 1) % 25)) :
    rowAcc (outsAt0 m c t.val t.isLt).2.1 (outsAt0 m c t.val t.isLt).2.2.1 (outsAt0 m c t.val t.isLt).2.2.2 q
      = Spec.Acc.run (rowLogit m c (rowOf t.val t.isLt q)) (rowTgt m c (rowOf t.val t.isLt q)) (t.val % 25) := by
  obtain ⟨k, hk⟩ : ∃ k, t.val % 25 = k + 1 := ⟨t.val % 25 - 1, by omega⟩
  have hk' : (t.val - 1) % 25 = k := by omega
  rw [outsAt0_B m c t h0 h1]
  dsimp only
  rw [rowB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q]
  rw [ih, step_eq m c t q, hk', hk]
  rfl

/-- At a tile's last point likewise, -/
theorem inv_C (c : Dev nD) (t : Fin cfg0.N) (h0 : ¬t.val % 25 = 0) (h1 : t.val % 25 = 24) (q : Fin 1024)
    (ih : rowAcc (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q
      = Spec.Acc.run (rowLogit m c (rowOf t.val t.isLt q)) (rowTgt m c (rowOf t.val t.isLt q)) ((t.val - 1) % 25)) :
    rowAcc (outsAt0 m c t.val t.isLt).2.1 (outsAt0 m c t.val t.isLt).2.2.1 (outsAt0 m c t.val t.isLt).2.2.2 q
      = Spec.Acc.run (rowLogit m c (rowOf t.val t.isLt q)) (rowTgt m c (rowOf t.val t.isLt q)) (t.val % 25) := by
  have hk' : (t.val - 1) % 25 = 23 := by omega
  rw [outsAt0_C m c t h0 h1]
  dsimp only
  rw [rowC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q]
  rw [ih, step_eq m c t q, hk', h1]
  rfl

/-- and the output block holds the report of the stream over all 25 chunks. -/
theorem out_C (c : Dev nD) (t : Fin cfg0.N) (h0 : ¬t.val % 25 = 0) (h1 : t.val % 25 = 24) (q : Fin 1024)
    (ih : rowAcc (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q
      = Spec.Acc.run (rowLogit m c (rowOf t.val t.isLt q)) (rowTgt m c (rowOf t.val t.isLt q)) ((t.val - 1) % 25)) :
    (outsAt0 m c t.val t.isLt).1 (ix2 q 0)
      = (Spec.Acc.run (rowLogit m c (rowOf t.val t.isLt q)) (rowTgt m c (rowOf t.val t.isLt q)) 24).out := by
  have hk' : (t.val - 1) % 25 = 23 := by omega
  rw [outsAt0_C m c t h0 h1]
  dsimp only
  rw [outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q]
  rw [ih, step_eq m c t q, hk', h1]
  rfl

/-- THE INVARIANT, by induction on the point: after point n the carried buffers hold, at row q, the stream over
    chunks 0 … n % 25 of row q of the point's sequence tile. -/
theorem inv (c : Dev nD) (n : ℕ) : ∀ (h : n < cfg0.N) (q : Fin 1024),
    rowAcc (outsAt0 m c n h).2.1 (outsAt0 m c n h).2.2.1 (outsAt0 m c n h).2.2.2 q
      = Spec.Acc.run (rowLogit m c (rowOf n h q)) (rowTgt m c (rowOf n h q)) (n % 25) := by
  induction n using Nat.strong_induction_on with
  | _ n ih =>
    intro h q
    by_cases h0 : n % 25 = 0
    · exact inv_A m c ⟨n, h⟩ h0 q
    · have ihp := ih (n - 1) (by omega) (Nat.lt_of_le_of_lt (Nat.sub_le _ _) h) q
      rw [rowOf_pred n h h0 q] at ihp
      by_cases h1 : n % 25 = 24
      · exact inv_C m c ⟨n, h⟩ h0 h1 q ihp
      · exact inv_B m c ⟨n, h⟩ h0 h1 q ihp

/-- The tile's result block after its last point: the reports of its 1024 rows. -/
theorem out_last (c : Dev nD) (t : Fin cfg0.N) (h1 : t.val % 25 = 24) (q : Fin 1024) :
    (outsAt0 m c t.val t.isLt).1 (ix2 q 0)
      = (Spec.Acc.run (rowLogit m c (rowOf t.val t.isLt q)) (rowTgt m c (rowOf t.val t.isLt q)) 24).out := by
  have h0 : ¬t.val % 25 = 0 := by omega
  have ihp := inv m c (t.val - 1) (Nat.lt_of_le_of_lt (Nat.sub_le _ _) t.isLt) q
  rw [rowOf_pred t.val t.isLt h0 q] at ihp
  exact out_C m c t h0 h1 q ihp

/-! ## From the tiles' result blocks to the result array -/

/-- The reports of all 8192 rows, as contents of the [8192, 1] result. -/
def report (c : Dev nD) : Vec Ideal S8192x1 .f32 :=
  fun y => (Spec.Acc.run (rowLogit m c ⟨(y 0).val, idx2_lt0 y⟩) (rowTgt m c ⟨(y 0).val, idx2_lt0 y⟩) 24).out

/-- What a tile's last point writes back is the tile's block of the reports. -/
theorem flushed_eq (c : Dev nD) (t : Fin cfg0.N) (hf : (cfg0.win 4).flush t = true) :
    (dats m 0 c).flushed 4 t = ((cfg0.win 4).blk t).view.read (Elt Ideal) (report m c) := by
  have h1 : t.val % 25 = 24 := (flush0_4 t).mp hf
  have e0 : win0_4.index t (0 : Fin 2) = t.val / 25 := (idx_facts t).2.2.2.2.2.2.2.2.1
  have e1 : win0_4.index t (1 : Fin 2) = 0 := (idx_facts t).2.2.2.2.2.2.2.2.2.1
  show (cfg0.win 4).cut (grid0.coords t) ((dats m 0 c).after 4 t) = _
  rw [after0_4]
  funext j
  have hq : (j 0).val < 1024 := (j 0).isLt
  have hz : (j 1).val < 1 := (j 1).isLt
  have hx : (cfg0.win 4).xinj (grid0.coords t) j = ix2 (⟨(j 0).val, hq⟩ : Fin 1024) (0 : Fin 1) := by
    funext a
    apply Fin.ext
    match a with
    | ⟨0, _⟩ => rfl
    | ⟨1, _⟩ => show (j 1).val = 0; omega
  have hr : ((cfg0.win 4).blk t).view.emb j = ix2 (rowOf t.val t.isLt ⟨(j 0).val, hq⟩) (0 : Fin 1) := by
    funext a
    apply Fin.ext
    match a with
    | ⟨0, _⟩ => show win0_4.index t 0 * 1024 + 1 * (j 0).val = 1024 * (t.val / 25) + (j 0).val; rw [e0]; omega
    | ⟨1, _⟩ => show win0_4.index t 1 * 1 + 1 * (j 1).val = 0; rw [e1]; omega
  show (outsAt0 m c t.val t.isLt).1 ((cfg0.win 4).xinj (grid0.coords t) j) = _
  rw [hx, out_last m c t h1 ⟨(j 0).val, hq⟩, View.read_apply]
  show _ = report m c (((cfg0.win 4).blk t).view.emb j)
  rw [hr]
  rfl

/-- An index of the result is in point t's block iff each coordinate is in the block's range on its axis. -/
theorem mem_blk (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v6).slice (win0_4.rect t)).set ↔ _
  rw [View.set_slice_whole, Rect.mem_set_unit]
  exact Iff.rfl

end Tiles

/-- THE RESULT ARRAY: row r holds the report of the stream over the 25 chunks of row r's logits — row r lies in
    the block that the last point of its sequence tile, 25·(r / 1024) + 24, writes back. -/
theorem final_out_apply (c : Dev nD) (r : Fin 8192) :
    ((dats m 0 c).arrAt 4 cfg0.N : Vec Ideal S8192x1 .f32) (ix2 r 0)
      = (Spec.Acc.run (rowLogit m c r) (rowTgt m c r) 24).out := by
  have ht : 25 * (r.val / 1024) + 24 < cfg0.N := by
    rw [show cfg0.N = 200 from N_0]; omega
  obtain ⟨t, htv⟩ : ∃ t : Fin cfg0.N, t.val = 25 * (r.val / 1024) + 24 := ⟨⟨_, ht⟩, rfl⟩
  have e0 : win0_4.index t (0 : Fin 2) = t.val / 25 := (Tiles.idx_facts t).2.2.2.2.2.2.2.2.1
  have e1 : win0_4.index t (1 : Fin 2) = 0 := (Tiles.idx_facts t).2.2.2.2.2.2.2.2.2.1
  have hf : (cfg0.win 4).flush t = true := (flush0_4 t).mpr (by omega)
  have hmem : (ix2 r (0 : Fin 1) : S8192x1.Idx) ∈ ((cfg0.win 4).blk t).view.set := by
    rw [Tiles.mem_blk]
    intro a
    match a with
    | ⟨0, _⟩ =>
      show win0_4.index t 0 * 1024 ≤ r.val ∧ r.val < win0_4.index t 0 * 1024 + 1024
      rw [e0]; omega
    | ⟨1, _⟩ =>
      show win0_4.index t 1 * 1 ≤ 0 ∧ 0 < win0_4.index t 1 * 1 + 1
      rw [e1]; omega
  exact (dats m 0 c).arrAt_apply_of_mem 4 (Tiles.report m c) (Tiles.flushed_eq m c) cfg0.N t (ix2 r 0) t.isLt hf hmem

end Cert.KernelIdeal.KVal

end
-- ==== Proof.KHost.lean ====
/-
  The host side of the kernel's program. Before the region: the input reshaped to [8192, 2048] rows (row 1024·b + t
  is token (b, t)), the weight as it is, the bias as one row, the targets clipped to [0, 31999] and reshaped to a
  column; the two narrowing conversions are the identity on extended reals. After the region: the result column
  reshaped to [8, 1024] goes through the same chain of operations as the reference's per-token values.
-/
import proofs.«404955_j35150012350893_2_alg».proof.Proof.Gen.KernelIdeal.Frame
import proofs.«404955_j35150012350893_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.KHost

open Cert.KernelIdeal Cert.KernelIdeal.Gen

variable (m : (ℓ : Loc nD τ sig) → Buf (Elt Ideal) ℓ)

/-- The argument arrays at their literal types. -/
abbrev a0 (c : Dev nD) : FVec Ideal S32000x2048 .f32 := m ((c : Thread nD τ).loc main_arg0)
abbrev a1 (c : Dev nD) : FVec Ideal S8x1024x2048 .f32 := m ((c : Thread nD τ).loc main_arg1)
abbrev a2 (c : Dev nD) : IVec S8x1024 32 := m ((c : Thread nD τ).loc main_arg2)
abbrev a3 (c : Dev nD) : FVec Ideal S32000 .f32 := m ((c : Thread nD τ).loc main_arg3)

/-- The contents the region finds are those left by the host operations before it, listed one by one. -/
local macro "open_V" : tactic => `(tactic| (dsimp only [Gen.V, Gen.V0]; simp only [Gen.hostOps0, Gen.hostOps0_1, Gen.hostOps0_2, List.flatten_cons, List.flatten_nil, List.append_nil, List.cons_append, List.nil_append]))

/-- Clipping a word between 0 and 31999 by signed maximum and minimum, read as a natural number. -/
private theorem clip_word (w : BitVec 32) :
    (IntOp.minsi 31999#32 (IntOp.maxsi 0#32 w)).toNat = Spec.clipT w := by
  have h0 : (0#32 : BitVec 32).toInt = 0 := by decide
  have h1 : (31999#32 : BitVec 32).toInt = 31999 := by decide
  have hw := BitVec.toInt_eq_toNat_cond w
  have hlt := w.isLt
  unfold Spec.clipT
  by_cases hneg : w.toInt < 0
  · have e1 : IntOp.maxsi 0#32 w = 0#32 := by
      unfold IntOp.maxsi; rw [if_pos]; simp only [BitVec.slt, h0]; exact decide_eq_true hneg
    rw [e1]
    have e2 : IntOp.minsi 31999#32 0#32 = 0#32 := by decide
    rw [e2]; simp only [BitVec.toNat_ofNat]; omega
  · have e1 : IntOp.maxsi 0#32 w = w := by
      unfold IntOp.maxsi; rw [if_neg]; simp only [BitVec.slt, h0]; simpa using hneg
    rw [e1]
    by_cases hbig : 31999 < w.toInt
    · have e2 : IntOp.minsi 31999#32 w = 31999#32 := by
        unfold IntOp.minsi; rw [if_pos]; simp only [BitVec.slt, h1]; exact decide_eq_true hbig
      rw [e2]; simp only [BitVec.toNat_ofNat]; omega
    · have e2 : IntOp.minsi 31999#32 w = w := by
        unfold IntOp.minsi; rw [if_neg]; simp only [BitVec.slt, h1]; simpa using hbig
      rw [e2]; split at hw <;> omega

/-- Row r of the reshaped input is token (r / 1024, r % 1024). -/
theorem V_v1_apply (c : Dev nD) (b : Fin 8) (t : Fin 1024) (h : Fin 2048) (r : Fin 8192) (hr : r.val = b.val * 1024 + t.val) :
    (V m c main_v1 : Vec Ideal S8192x2048 .bf16) (ix2 r h) = a1 m c (ix3 b t h) := by
  -- the narrowing conversion is the identity, so the array is the reshaped argument
  have e : (V m c main_v1 : S8192x2048.Idx → EReal)
      = (shapeCast S8192x2048 (a1 m c) shapeCasts_S8x1024x2048_S8192x2048 : S8192x2048.Idx → EReal) := by
    open_V; after_results; rfl
  refine (congrFun e (ix2 r h)).trans ?_
  -- both indices sit at row-major position (1024·b + t)·2048 + h
  exact shapeCast_apply _ _ _ _ (by
    rw [Shape.rowMajor_val_three, Shape.rowMajor_val_two]
    show (b.val * 1024 + t.val) * 2048 + h.val = r.val * 2048 + h.val
    rw [hr])

/-- The weight the region finds is the argument. -/
theorem V_v2_apply (c : Dev nD) (v : Fin 32000) (h : Fin 2048) :
    (V m c main_v2 : Vec Ideal S32000x2048 .bf16) (ix2 v h) = a0 m c (ix2 v h) := by
  have e : (V m c main_v2 : S32000x2048.Idx → EReal) = (a0 m c : S32000x2048.Idx → EReal) := by
    open_V; after_results; rfl
  exact congrFun e (ix2 v h)

/-- The bias row the region finds is the argument. -/
theorem V_v3_apply (c : Dev nD) (v : Fin 32000) :
    (V m c main_v3 : Vec Ideal S1x32000 .f32) (ix2 0 v) = a3 m c (ix1 v) := by
  have e : (V m c main_v3 : S1x32000.Idx → EReal)
      = (shapeCast S1x32000 (a3 m c) shapeCasts_S32000_S1x32000 : S1x32000.Idx → EReal) := by
    open_V; after_results; rfl
  exact (congrFun e (ix2 0 v)).trans (shapeCast_a_1a_apply _ _ 0 v)

/-- The target column the region finds holds the clipped target of token (r / 1024, r % 1024), as a natural number. -/
theorem V_v5_toNat (c : Dev nD) (b : Fin 8) (t : Fin 1024) (r : Fin 8192) (hr : r.val = b.val * 1024 + t.val) :
    ((V m c main_v5 : Vec Ideal S8192x1 .i32) (ix2 r 0)).toNat = Spec.clipT (a2 m c (ix2 b t)) := by
  -- the column is the reshape of min(31999, max(0, target)), both bounds broadcast from scalars
  have e : (V m c main_v5 : S8192x1.Idx → BitVec 32)
      = (shapeCast S8192x1 (minsi (broadcastInDim S8x1024 ![] bcast_S_S8x1024 (constantI S_ 32 31999#32))
          (maxsi (broadcastInDim S8x1024 ![] bcast_S_S8x1024 (constantI S_ 32 0#32)) (a2 m c))) shapeCasts_S8x1024_S8192x1 : S8192x1.Idx → BitVec 32) := by
    open_V; after_results; rfl
  -- row r of the column and entry (b, t) of the [8, 1024] array sit at the same row-major position
  have e' := (congrFun e (ix2 r 0)).trans (shapeCast_apply _ _ (ix2 r 0) (ix2 b t) (by
    rw [Shape.rowMajor_val_two, Shape.rowMajor_val_two]
    show b.val * 1024 + t.val = r.val * 1 + 0
    rw [hr, Nat.mul_one, Nat.add_zero]))
  refine (congrArg BitVec.toNat e').trans ?_
  exact clip_word (a2 m c (ix2 b t))

/-- The result column as an [8, 1024] array: entry (b, t) is row 1024·b + t. -/
def outBT (c : Dev nD) : FVec Ideal S8x1024 .f32 :=
  fun i => ((dats m 0 c).arrAt 4 cfg0.N : Vec Ideal S8192x1 .f32)
    (ix2 (⟨(i 0).val * 1024 + (i 1).val, by have h0 : (i 0).val < 8 := (i 0).isLt; have h1 : (i 1).val < 1024 := (i 1).isLt; omega⟩ : Fin 8192) 0)

/-- The operations after the region, run from any buffer contents, leave in the program's result the loss of the
    specification applied to the result column reshaped to [8, 1024] and to the target buffer: the two are the same
    chain of operations, so once the two buffers are variables the equation holds by unfolding the definition. -/
private theorem tail_chain (W : Valuation τ sig (Elt Ideal)) :
    (StableHlo.after (List.flatten [hostOps1, hostOps1_1, hostOps1_2]) W (Proc.devRef .tc main_v40) : FVec Ideal S_ .f32)
      = Spec.tail (shapeCast S8x1024 (W (Proc.devRef .tc main_v6) : S8192x1.Idx → EReal) shapeCasts_S8192x1_S8x1024)
          (W (Proc.devRef .tc main_arg2) : IVec S8x1024 32) := by
  simp only [Gen.hostOps1, Gen.hostOps1_1, Gen.hostOps1_2, List.flatten_cons, List.flatten_nil, List.append_nil, List.cons_append, List.nil_append]
  after_results_simp
  generalize W (Proc.devRef .tc main_v6) = x6
  generalize W (Proc.devRef .tc main_arg2) = x2
  rfl

/-- What the operations after the region leave in the program's result: `Spec.tail` of the result column read as
    [8, 1024] and of the target argument. -/
theorem tail_eq (c : Dev nD) :
    (Pipeline.afterTail₀ cfgs (dats m) 0 (V0 m) [hostOps1, hostOps1_1, hostOps1_2] c main_v40 : FVec Ideal S_ .f32)
      = Spec.tail (outBT m c) (a2 m c) := by
  unfold Pipeline.afterTail₀
  refine (tail_chain _).trans ?_
  refine congrArg₂ Spec.tail ?_ ?_
  · -- the reshaped result column: entry (b, t) is row 1024·b + t of what the region left in its output array
    funext i
    obtain ⟨b, t, rfl⟩ : ∃ (b : Fin 8) (t : Fin 1024), i = ix2 b t := ⟨i 0, i 1, eq_ix2 i⟩
    refine (shapeCast_apply _ _ (ix2 b t) (ix2 (⟨b.val * 1024 + t.val, by have h0 := b.isLt; have h1 := t.isLt; omega⟩ : Fin 8192) (0 : Fin 1)) ?_).trans ?_
    · rw [Shape.rowMajor_val_two, Shape.rowMajor_val_two]
      show (b.val * 1024 + t.val) * 1 + 0 = b.val * 1024 + t.val
      rw [Nat.mul_one, Nat.add_zero]
    · exact congrFun (Pipeline.withArrays_arr spec0 launch0.win.arr_inj c _ _ 4) _
  · -- the target argument is no array of the region and no host operation before it writes it
    exact (Pipeline.withArrays_of_ne _ c (V0 m c) _ main_arg2 (by exact (by decide : ∀ w, Pipeline.arrRef spec0 w ≠ main_arg2))).trans (V_main_arg2 m c)

end Cert.KernelIdeal.KHost

end
-- ==== Proof.Math.lean ====
/-
  The streaming log-softmax is the log-softmax. For a row of REAL logits ℓ(0), …, ℓ(31999) read in 25 chunks of 1280,
  after chunk k the stream holds mₖ = max of the logits so far, sₖ = ∑ exp(ℓ(v) − mₖ) over the logits so far, and the
  target's logit if its column has been passed: the step multiplies the old sum by exp(mₖ₋₁ − mₖ), which turns every
  old term exp(ℓ(v) − mₖ₋₁) into exp(ℓ(v) − mₖ) (the first step multiplies the empty sum 0 by exp(−∞ − m₀) = 0).
  At the end T-logit − (M + log S) = (T-logit − M) − log S, all terms real.
-/
import proofs.«404955_j35150012350893_2_alg».proof.Proof.Spec
import Mathlib.Analysis.SpecialFunctions.Log.Basic
import Mathlib.Analysis.SpecialFunctions.Exp
import Mathlib.Data.EReal.Basic
import Mathlib.Data.EReal.Operations
import Mathlib.Algebra.BigOperators.Fin
import Mathlib.Algebra.BigOperators.Group.Finset.Piecewise
import Mathlib.Data.Finset.Lattice.Fold

noncomputable section

namespace Cert.Spec

open Idealize.ShloMosaic
open scoped BigOperators

/-- The coercion of reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running fold of max from −∞ is the finite supremum. -/
private theorem fold_max_eq_sup {ι : Type*} (s : Finset ι) (f : ι → EReal) : s.fold max ⊥ f = s.sup f := rfl

/-- A supremum of reals over a nonempty finite set is a real. -/
private theorem sup_coe_real {ι : Type*} (s : Finset ι) (hs : s.Nonempty) (f : ι → ℝ) :
    ∃ C : ℝ, s.sup (fun i => (f i : EReal)) = (C : EReal) := by
  obtain ⟨i, _, hi⟩ := Finset.exists_mem_eq_sup s hs (fun i => (f i : EReal))
  exact ⟨f i, hi⟩

/-- The supremum over the columns below n + m splits at n. -/
private theorem sup_range_add (g : ℕ → EReal) (n m : ℕ) :
    (Finset.range (n + m)).sup g = (Finset.range n).sup g ⊔ (Finset.univ : Finset (Fin m)).sup (fun j => g (n + j.val)) := by
  apply le_antisymm
  · refine Finset.sup_le fun v hv => ?_
    rw [Finset.mem_range] at hv
    by_cases h : v < n
    · exact le_sup_of_le_left (Finset.le_sup (Finset.mem_range.2 h))
    · have hj : v - n < m := by omega
      have e : g v = (fun j : Fin m => g (n + j.val)) ⟨v - n, hj⟩ := by
        show g v = g (n + (v - n)); congr 1; omega
      rw [e]
      exact le_sup_of_le_right (Finset.le_sup (f := fun j : Fin m => g (n + j.val)) (Finset.mem_univ _))
  · refine sup_le (Finset.sup_mono (Finset.range_subset_range.2 (Nat.le_add_right n m))) (Finset.sup_le fun j _ => ?_)
    exact Finset.le_sup (f := g) (Finset.mem_range.2 (by have := j.isLt; omega))

/-- A sum over the columns of one chunk, as a sum over a range. -/
private theorem sum_chunk {M : Type*} [AddCommMonoid M] (F : ℕ → M) (n m : ℕ) :
    ∑ j : Fin m, F (n + j.val) = ∑ j ∈ Finset.range m, F (n + j) :=
  Fin.sum_univ_eq_sum_range (fun j => F (n + j)) m

/-- The target's logit picked by the one-hot test over one chunk. -/
private theorem tl_step (y : ℕ → ℝ) (T n : ℕ) :
    ((if T < n then y T else 0 : ℝ) : EReal)
        + ∑ j : Fin 1280, (if n + j.val = T then (y (n + j.val) : EReal) else 0)
      = ((if T < n + 1280 then y T else 0 : ℝ) : EReal) := by
  have e : ∀ j : Fin 1280, (if n + j.val = T then (y (n + j.val) : EReal) else 0)
      = (((if n + j.val = T then y (n + j.val) else 0 : ℝ)) : EReal) := by
    intro j; split_ifs <;> simp
  rw [Finset.sum_congr rfl (fun j _ => e j), ← coe_sum, ← EReal.coe_add]
  congr 1
  rw [sum_chunk (fun v => if v = T then y v else 0) n 1280]
  by_cases h : T < n
  · rw [if_pos h, if_pos (by omega), Finset.sum_eq_zero (fun j _ => if_neg (by omega)), add_zero]
  · rw [if_neg h, zero_add]
    obtain ⟨d, rfl⟩ := Nat.exists_eq_add_of_le (not_lt.1 h)
    have e' : ∀ j ∈ Finset.range 1280,
        (if n + j = n + d then y (n + j) else 0) = if j = d then y (n + j) else 0 :=
      fun j _ => by simp only [add_right_inj]
    rw [Finset.sum_congr rfl e', Finset.sum_ite_eq']
    by_cases hd : d < 1280
    · rw [if_pos (Finset.mem_range.2 hd), if_pos (by omega)]
    · rw [if_neg (fun h' => hd (Finset.mem_range.1 h')), if_neg (by omega)]

/-- One chunk's exponentials relative to a real reference point. -/
private theorem se_chunk (y : ℕ → ℝ) (n : ℕ) (M' : ℝ) :
    ∑ j : Fin 1280, Ideal.exp ((y (n + j.val) : EReal) - (M' : EReal))
      = ((∑ j ∈ Finset.range 1280, Real.exp (y (n + j) - M') : ℝ) : EReal) := by
  rw [coe_sum, ← sum_chunk (fun v => ((Real.exp (y v - M') : ℝ) : EReal)) n 1280]
  refine Finset.sum_congr rfl fun j _ => ?_
  rw [← EReal.coe_sub, Ideal.exp_coe]

/-- What the stream holds once the columns below n have been read: the largest logit so far (a real), the sum of the
    exponentials of the logits so far relative to it, and the target's logit if its column has been passed. -/
private def Holds (y : ℕ → ℝ) (T n : ℕ) (s : Acc) : Prop :=
  ∃ M : ℝ, s.mx = (M : EReal) ∧ (M : EReal) = (Finset.range n).sup (fun v => (y v : EReal)) ∧
    s.se = ((∑ v ∈ Finset.range n, Real.exp (y v - M) : ℝ) : EReal) ∧
    s.tl = ((if T < n then y T else 0 : ℝ) : EReal)

/-- The first chunk: the empty sum 0 times exp(−∞ − m₀) is 0. -/
private theorem holds_first (y : ℕ → ℝ) (T : ℕ) :
    Holds y T (0 + 1280) (Acc.init.step (fun j => (y (0 + j.val) : EReal)) 0 T) := by
  obtain ⟨C, hC⟩ := sup_coe_real (Finset.univ : Finset (Fin 1280)) Finset.univ_nonempty (fun j => y (0 + j.val))
  have hmx : max (⊥ : EReal) ((Finset.univ : Finset (Fin 1280)).fold max ⊥ (fun j => (y (0 + j.val) : EReal)))
      = (C : EReal) := by
    rw [fold_max_eq_sup, hC, max_eq_right bot_le]
  refine ⟨C, hmx, ?_, ?_, ?_⟩
  · rw [sup_range_add, Finset.range_zero, Finset.sup_empty, bot_sup_eq]
    exact hC.symm
  · show (0 : EReal) * Ideal.exp (⊥ - max ⊥ _) + ∑ j : Fin 1280, Ideal.exp ((y (0 + j.val) : EReal) - max ⊥ _) = _
    rw [hmx, zero_mul, zero_add, se_chunk, Finset.sum_range_add, Finset.range_zero, Finset.sum_empty, zero_add]
  · show (0 : EReal) + ∑ j : Fin 1280, (if 0 + j.val = T then (y (0 + j.val) : EReal) else 0) = _
    have e := tl_step y T 0
    rw [if_neg (Nat.not_lt_zero T), EReal.coe_zero] at e
    exact e

/-- A later chunk: exp(a − m) · exp(m − m') = exp(a − m') turns every old term to the new reference point. -/
private theorem holds_step (y : ℕ → ℝ) (T n : ℕ) (s : Acc) (h : Holds y T n s) :
    Holds y T (n + 1280) (s.step (fun j => (y (n + j.val) : EReal)) n T) := by
  obtain ⟨M, hmx, hM, hse, htl⟩ := h
  obtain ⟨C, hC⟩ := sup_coe_real (Finset.univ : Finset (Fin 1280)) Finset.univ_nonempty (fun j => y (n + j.val))
  have hmx' : max s.mx ((Finset.univ : Finset (Fin 1280)).fold max ⊥ (fun j => (y (n + j.val) : EReal)))
      = ((max M C : ℝ) : EReal) := by
    rw [fold_max_eq_sup, hC, hmx, EReal.coe_strictMono.monotone.map_max]
  refine ⟨max M C, hmx', ?_, ?_, ?_⟩
  · rw [sup_range_add, ← hM, EReal.coe_strictMono.monotone.map_max]
    exact congrArg (max (M : EReal)) hC.symm
  · show s.se * Ideal.exp (s.mx - max s.mx _) + ∑ j : Fin 1280, Ideal.exp ((y (n + j.val) : EReal) - max s.mx _) = _
    have e : ∀ v ∈ Finset.range n,
        Real.exp (y v - M) * Real.exp (M - max M C) = Real.exp (y v - max M C) :=
      fun v _ => by rw [← Real.exp_add]; congr 1; ring
    rw [hmx', hmx, hse, se_chunk, ← EReal.coe_sub, Ideal.exp_coe, ← EReal.coe_mul, ← EReal.coe_add,
      Finset.sum_range_add, Finset.sum_mul, Finset.sum_congr rfl e]
  · show s.tl + ∑ j : Fin 1280, (if n + j.val = T then (y (n + j.val) : EReal) else 0) = _
    rw [htl]; exact tl_step y T n

/-- After chunks 0 … k the stream holds the facts of the columns below 1280 (k + 1). -/
private theorem holds_run (y : ℕ → ℝ) (T : ℕ) (k : ℕ) :
    Holds y T ((k + 1) * 1280) (Acc.run (fun v => (y v : EReal)) T k) := by
  induction k with
  | zero => exact holds_first y T
  | succ k ih =>
    have e : (k + 1 + 1) * 1280 = (k + 1) * 1280 + 1280 := by ring
    rw [e]
    exact holds_step y T ((k + 1) * 1280) _ ih

/-- A row of reals as a function of a natural column (0 past the vocabulary). -/
private def extR (x : Fin 32000 → ℝ) (v : ℕ) : ℝ := if h : v < 32000 then x ⟨v, h⟩ else 0

private theorem extR_val (x : Fin 32000 → ℝ) (v : Fin 32000) : extR x v.val = x v := by
  unfold extR; rw [dif_pos v.isLt]

/-- Real inputs give real logits. -/
theorem logits_real {A0 : FVec Ideal S32000x2048 .f32} {A1 : FVec Ideal S8x1024x2048 .f32} {A2 : IVec S8x1024 32}
    {A3 : FVec Ideal S32000 .f32} (h : Admissible A0 A1 A2 A3) (b : Fin 8) (t : Fin 1024) (v : Fin 32000) :
    ∃ r : ℝ, logits A0 A1 A3 b t v = (r : EReal) := by
  choose a0 h0 using h.real0
  choose a1 h1 using h.real1
  choose a3 h3 using h.real3
  refine ⟨(∑ c : Fin 2048, a1 (ValueIdx.ix3 b t c) * a0 (ValueIdx.ix2 v c)) + a3 (ValueIdx.ix1 v), ?_⟩
  have e : ∀ c ∈ (Finset.univ : Finset (Fin 2048)), A1 (ValueIdx.ix3 b t c) * A0 (ValueIdx.ix2 v c)
      = ((a1 (ValueIdx.ix3 b t c) * a0 (ValueIdx.ix2 v c) : ℝ) : EReal) :=
    fun c _ => by rw [h1, h0, EReal.coe_mul]
  unfold logits
  rw [EReal.coe_add, coe_sum, h3, Finset.sum_congr rfl e]

/-- THE STREAM IS THE LOG-SOFTMAX: for a row of real logits and a target column inside the vocabulary, the stream's
    report after all 25 chunks is the log-softmax of the row read at the target. -/
theorem stream_eq_logp (ℓ : Fin 32000 → EReal) (hℓ : ∀ v, ∃ r : ℝ, ℓ v = (r : EReal)) (T : Fin 32000) :
    (Acc.run (ext ℓ) T.val 24).out = logp ℓ T := by
  choose x hx using hℓ
  have hy : ext ℓ = fun v => (extR x v : EReal) := by
    funext v
    unfold ext extR
    by_cases h : v < 32000
    · rw [dif_pos h, dif_pos h, hx]
    · rw [dif_neg h, dif_neg h, EReal.coe_zero]
  obtain ⟨M, hmx, hM, hse, htl⟩ := holds_run (extR x) T.val 24
  rw [show (24 + 1) * 1280 = 32000 from rfl] at hM hse htl
  have hrow : rowMax ℓ = (M : EReal) := by
    have e := sup_range_add (fun v => (extR x v : EReal)) 0 32000
    rw [Finset.range_zero, Finset.sup_empty, bot_sup_eq] at e
    simp only [Nat.zero_add] at e
    unfold rowMax
    rw [fold_max_eq_sup, hM, e]
    refine Finset.sup_congr rfl fun v _ => ?_
    rw [extR_val, hx]
  have hsum : ∑ v : Fin 32000, Ideal.exp (ℓ v - (M : EReal))
      = ((∑ v ∈ Finset.range 32000, Real.exp (extR x v - M) : ℝ) : EReal) := by
    rw [coe_sum, ← Fin.sum_univ_eq_sum_range (fun v => ((Real.exp (extR x v - M) : ℝ) : EReal)) 32000]
    refine Finset.sum_congr rfl fun v _ => ?_
    rw [hx, ← EReal.coe_sub, Ideal.exp_coe, extR_val]
  have hS : 0 < ∑ v ∈ Finset.range 32000, Real.exp (extR x v - M) :=
    Finset.sum_pos (fun v _ => Real.exp_pos _) ⟨0, Finset.mem_range.2 (by norm_num)⟩
  unfold Acc.out logp
  rw [hy, htl, hmx, hse, hrow, hsum, hx T, Ideal.log_coe, if_neg (not_le.2 hS), if_pos T.isLt, extR_val]
  simp only [← EReal.coe_add, ← EReal.coe_sub, sub_sub]

end Cert.Spec
end
-- ==== Proof.KAsm.lean ====
/-
  The kernel's program, read: its result is the loss chain of the per-token log-probabilities of the specification
  and of the targets. The result column holds, at row 1024·b + t, the report of the stream over token (b, t)'s logits
  and clipped target; the stream's report is the log-softmax at the target; and the operations after the region
  are the loss chain.
-/
import proofs.«404955_j35150012350893_2_alg».proof.Proof.KInv
import proofs.«404955_j35150012350893_2_alg».proof.Proof.KHost
import proofs.«404955_j35150012350893_2_alg».proof.Proof.Math

noncomputable section

open Idealize.ShloMosaic Idealize.ShloMosaic.TcCoe Idealize.SL.Sem
open Idealize.ShloMosaic.ValueIdx
open Idealize.ShloMosaic.Pipeline (Dat)

namespace Cert.KernelIdeal.KVal

open Cert.KernelIdeal Cert.KernelIdeal.Gen Cert.KernelIdeal.KHost

variable (m : (ℓ : Loc nD τ sig) → Buf (Elt Ideal) ℓ) (ρ : Dev nD → PrngReg)

/-- The result column, read as [8, 1024], is the specification's per-token array. -/
theorem outBT_eq (c : Dev nD) (hadm : Spec.Admissible (a0 m c) (a1 m c) (a2 m c) (a3 m c)) :
    outBT m c = Spec.ptl (a0 m c) (a1 m c) (a2 m c) (a3 m c) := by
  funext i
  obtain ⟨b, t, rfl⟩ : ∃ (b : Fin 8) (t : Fin 1024), i = ix2 b t := ⟨i 0, i 1, eq_ix2 i⟩
  have hlt : b.val * 1024 + t.val < 8192 := by have := b.isLt; have := t.isLt; omega
  show ((dats m 0 c).arrAt 4 cfg0.N : Vec Ideal S8192x1 .f32) (ix2 (⟨b.val * 1024 + t.val, hlt⟩ : Fin 8192) 0)
      = Spec.logp (Spec.logits (a0 m c) (a1 m c) (a3 m c) b t) (Spec.tgtIdx (a2 m c (ix2 b t)))
  rw [final_out_apply]
  -- the row's logits and target, from the arrays the region finds, are the specification's
  have hL : rowLogit m c ⟨b.val * 1024 + t.val, hlt⟩ = Spec.ext (Spec.logits (a0 m c) (a1 m c) (a3 m c) b t) := by
    funext v
    unfold rowLogit Spec.ext
    by_cases hv : v < 32000
    · rw [dif_pos hv, dif_pos hv]
      unfold Spec.logits
      dsimp only [xArr, wArr, bArr]
      rw [V_v3_apply m c ⟨v, hv⟩]
      congr 1
      exact Finset.sum_congr rfl (fun h _ => by
        rw [V_v1_apply m c b t h ⟨b.val * 1024 + t.val, hlt⟩ rfl, V_v2_apply m c ⟨v, hv⟩ h])
    · rw [dif_neg hv, dif_neg hv]
  have hT : rowTgt m c ⟨b.val * 1024 + t.val, hlt⟩ = (Spec.tgtIdx (a2 m c (ix2 b t))).val :=
    V_v5_toNat m c b t ⟨b.val * 1024 + t.val, hlt⟩ rfl
  rw [hL, hT]
  exact Spec.stream_eq_logp _ (fun v => Spec.logits_real hadm b t v) _

/-- The run: the program's result is the loss chain of the specification's per-token values; the arguments are unchanged. -/
theorem run (hadm : ∀ c : Dev nD, Spec.Admissible (a0 m c) (a1 m c) (a2 m c) (a3 m c)) :
    θ_run (defs (F := Ideal)) (onTc (τ := τ) (main (F := Ideal))) ⟨m, fun _ => 0, ρ⟩ (fun r => ∀ c : Dev nD,
      r.2.mem ((c.tc : Thread nD τ).loc main_v40)
        = (Spec.tail (Spec.ptl (a0 m c) (a1 m c) (a2 m c) (a3 m c)) (a2 m c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v40 (Pipeline.mem_restRefs_of main_v40 (by decide) (by decide))).trans
        ((tail_eq m c).trans (by rw [outBT_eq m c (hadm c)]))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KVal

end
-- ==== Proof.RDefs.lean ====
/-
  The reference's per-token values as ONE term of the argument arrays, operation by operation as the program computes
  them: the logits einsum("bth,vh->btv") + bias, their log-softmax along the vocabulary axis (shift by the row maximum,
  subtract the log of the sum of exponentials), and the entry at the target clipped below at 0, taken along that axis
  (an index outside [0, 31999] would be filled with the NaN pattern), reshaped to [8, 1024].
-/
import proofs.«404955_j35150012350893_2_alg».proof.ReferenceIdeal
import proofs.«404955_j35150012350893_2_alg».proof.Proof.Gen.ReferenceIdeal
import proofs.«404955_j35150012350893_2_alg».proof.Proof.Spec

noncomputable section

open Idealize.ShloMosaic Idealize.SL.Sem

namespace Cert.ReferenceIdeal.RVal

open Cert.ReferenceIdeal Cert.ReferenceIdeal.Facts₀

/-- The logits: the batched product of the input with the weight over the hidden axis, plus the bias along the
    vocabulary axis. -/
def refLogits (A0 : FVec Ideal S32000x2048 .f32) (A1 : FVec Ideal S8x1024x2048 .f32) (A3 : FVec Ideal S32000 .f32) :
    FVec Ideal S8x1024x32000 .f32 :=
  let v0 : FVec Ideal S8x1024x32000 .f32 := Host.dotGeneral dot_S8x1024x2048_S32000x2048_S8x1024x32000_2_1_01_0_n_n none A1 A0
  let v1 : FVec Ideal S1x1x32000 .f32 := broadcastInDim S1x1x32000 ![2] bcast_S32000_S1x1x32000_2 A3
  let v2 : FVec Ideal S8x1024x32000 .f32 := broadcastInDim S8x1024x32000 ![0, 1, 2] bcast_S1x1x32000_S8x1024x32000_0_1_2 v1
  addf v0 v2

/-- Log-softmax along the vocabulary axis. -/
def refLogSoftmax (x : FVec Ideal S8x1024x32000 .f32) : FVec Ideal S8x1024x32000 .f32 :=
  let ninf : FVec Ideal S_ .f32 := constant S_ .f32 0xFF800000#32
  let s0 : FVec Ideal S8x1024 .f32 := Host.reduce FloatOps.maximumf x ninf reducesTo_S8x1024x32000_S8x1024_d2 h_S_
  let s1 : FVec Ideal S8x1024 .f32 := broadcastInDim S8x1024 ![] bcast_S_S8x1024 ninf
  let s2 : FVec Ideal S8x1024 .f32 := maximumf s1 s0
  let s3 : FVec Ideal S8x1024x1 .f32 := broadcastInDim S8x1024x1 ![0, 1] bcast_S8x1024_S8x1024x1_0_1 s2
  let s4 : FVec Ideal S8x1024x32000 .f32 := broadcastInDim S8x1024x32000 ![0, 1, 2] bcast_S8x1024x1_S8x1024x32000_0_1_2 s3
  let s5 : FVec Ideal S8x1024x32000 .f32 := subf x s4
  let s6 : FVec Ideal S8x1024x32000 .f32 := Host.exp s5
  let zero : FVec Ideal S_ .f32 := constant S_ .f32 0x00000000#32
  let s7 : FVec Ideal S8x1024 .f32 := Host.reduceAdd s6 zero reducesTo_S8x1024x32000_S8x1024_d2 h_S_
  let s8 : FVec Ideal S8x1024x1 .f32 := broadcastInDim S8x1024x1 ![0, 1] bcast_S8x1024_S8x1024x1_0_1 s7
  let s9 : FVec Ideal S8x1024x1 .f32 := Host.log s8
  let s10 : FVec Ideal S8x1024x32000 .f32 := broadcastInDim S8x1024x32000 ![0, 1, 2] bcast_S8x1024x1_S8x1024x32000_0_1_2 s9
  subf s5 s10

/-- The targets clipped below at 0, with a trailing unit axis. -/
def refIdx (A2 : IVec S8x1024 32) : IVec S8x1024x1 32 :=
  let c0 : IVec S_ 32 := constantI S_ 32 0#32
  let k1 : IVec S8x1024 32 := broadcastInDim S8x1024 ![] bcast_S_S8x1024 (id c0)
  let v5 : IVec S8x1024 32 := maxsi k1 A2
  broadcastInDim S8x1024x1 ![0, 1] bcast_S8x1024_S8x1024x1_0_1 v5

/-- The entry of each vocabulary row at its index (negative indices wrapped by 32000, indices outside [0, 31999]
    filled with the NaN pattern). -/
def refTake (x : FVec Ideal S8x1024x32000 .f32) (ix : IVec S8x1024x1 32) : FVec Ideal S8x1024x1 .f32 :=
  let t0 : IVec S8x1024x1 32 := broadcastInDim S8x1024x1 ![] bcast_S_S8x1024x1 (constantI S_ 32 0#32)
  let t1 : IVec S8x1024x1 1 := cmpi .slt ix t0
  let t2 : IVec S8x1024x1 32 := broadcastInDim S8x1024x1 ![] bcast_S_S8x1024x1 (constantI S_ 32 32000#32)
  let t3 : IVec S8x1024x1 32 := addi ix t2
  let t4 : IVec S8x1024x1 32 := select t1 t3 ix
  let t5 : IVec S8x1024x1x1 32 := shapeCast S8x1024x1x1 t4 shapeCasts_S8x1024x1_S8x1024x1x1
  let t6 : IVec S8x1024x1x1 32 := broadcastInDim S8x1024x1x1 ![] bcast_S_S8x1024x1x1 (constantI S_ 32 0#32)
  let t7 : IVec S8x1024x1x1 1 := cmpi .sge t5 t6
  let t8 : IVec S1x1x1x1 32 := broadcastInDim S1x1x1x1 ![3] bcast_S1_S1x1x1x1_3 (constantI S1 32 31999#32)
  let t9 : IVec S8x1024x1x1 32 := broadcastInDim S8x1024x1x1 ![0, 1, 2, 3] bcast_S1x1x1x1_S8x1024x1x1_0_1_2_3 t8
  let t10 : IVec S8x1024x1x1 1 := cmpi .sle t5 t9
  let t11 : IVec S8x1024x1x1 1 := andi t7 t10
  let t12 : IVec S8x1024x1 1 := Host.reduce IntOp.andi t11 (constantI S_ 1 1#1) reducesTo_S8x1024x1x1_S8x1024x1_d3 h_S_
  let t13 : FVec Ideal S8x1024x1 .f32 := Host.gather gather_S8x1024x32000_S8x1024x1x1_S8x1024x1_n_2_01_01_2_3_111 x t5
  let t14 : FVec Ideal S8x1024x1 .f32 := broadcastInDim S8x1024x1 ![] bcast_S_S8x1024x1 (constant S_ .f32 0x7FC00000#32)
  select t12 t13 t14

/-- The reference's per-token log-probabilities. -/
def refPtl (A0 : FVec Ideal S32000x2048 .f32) (A1 : FVec Ideal S8x1024x2048 .f32) (A2 : IVec S8x1024 32)
    (A3 : FVec Ideal S32000 .f32) : FVec Ideal S8x1024 .f32 :=
  shapeCast S8x1024 (refTake (refLogSoftmax (refLogits A0 A1 A3)) (refIdx A2)) shapeCasts_S8x1024x1_S8x1024

end Cert.ReferenceIdeal.RVal

end
-- ==== Proof.ROps.lean ====
/-
  The reference program's operations as a list, in program order with the four helper functions' operations at their
  call sites, cut into three stretches: the logits and their log-softmax; the clipped targets and the entry taken at
  them; the loss chain. Every operation touches TensorCore buffers only and determines its result, and @main is the
  three stretches run in order.
-/
import proofs.«404955_j35150012350893_2_alg».proof.Proof.RDefs
import Idealize.ShloMosaic.Lib.StableHlo.Run

noncomputable section

open Idealize.ShloMosaic Idealize.ShloMosaic.TcCoe Idealize.SL.Sem Idealize.ShloMosaic.StableHlo

namespace Cert.ReferenceIdeal.RVal

open Cert.ReferenceIdeal Cert.ReferenceIdeal.Facts₀

variable {F : FTy → Type} [FloatOps F]

/-- The logits and their log-softmax: @main's first four operations and @log_softmax's fifteen at its call. -/
abbrev opsA : List (HloOp τ sig (Elt F)) :=
  [ binary main_arg1 main_arg0 main_v0 ((fun l r => Host.dotGeneral dot_S8x1024x2048_S32000x2048_S8x1024x32000_2_1_01_0_n_n none l r) : (⟨S8x1024x2048, .f32⟩ : BufTy).Contents (Elt F) → (⟨S32000x2048, .f32⟩ : BufTy).Contents (Elt F) → (⟨S8x1024x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x1024x32000 ![0, 1, 2] bcast_S1x1x32000_S8x1024x32000_0_1_2 : (⟨S1x1x32000, .f32⟩ : BufTy).Contents (Elt F) → (⟨S8x1024x32000, .f32⟩ : BufTy).Contents (Elt F)),
    binary main_v0 main_v2 main_v3 (addf : (⟨S8x1024x32000, .f32⟩ : BufTy).Contents (Elt F) → (⟨S8x1024x32000, .f32⟩ : BufTy).Contents (Elt F) → (⟨S8x1024x32000, .f32⟩ : BufTy).Contents (Elt F)),
    TRef.nullary main_call0.cst (constant S_ .f32 0xFF800000#32),
    TRef.binary (.of main_v3 : TRef sig ⟨S8x1024x32000, .f32⟩) main_call0.cst main_call0.v0 (fun x v => Host.reduce FloatOps.maximumf x v reducesTo_S8x1024x32000_S8x1024_d2 h_S_),
    TRef.nullary main_call0.cst_0 (constant S_ .f32 0xFF800000#32),
    TRef.unary main_call0.cst_0 main_call0.v1 (broadcastInDim S8x1024 ![] bcast_S_S8x1024),
    TRef.binary main_call0.v1 main_call0.v0 main_call0.v2 maximumf,
    TRef.unary main_call0.v2 main_call0.v3 (broadcastInDim S8x1024x1 ![0, 1] bcast_S8x1024_S8x1024x1_0_1),
    TRef.unary main_call0.v3 main_call0.v4 (broadcastInDim S8x1024x32000 ![0, 1, 2] bcast_S8x1024x1_S8x1024x32000_0_1_2),
    TRef.binary (.of main_v3 : TRef sig ⟨S8x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x1024x32000_S8x1024_d2 h_S_),
    TRef.unary main_call0.v7 main_call0.v8 (broadcastInDim S8x1024x1 ![0, 1] bcast_S8x1024_S8x1024x1_0_1),
    TRef.unary main_call0.v8 main_call0.v9 Host.log,
    TRef.unary main_call0.v9 main_call0.v10 (broadcastInDim S8x1024x32000 ![0, 1, 2] bcast_S8x1024x1_S8x1024x32000_0_1_2),
    TRef.binary main_call0.v5 main_call0.v10 main_call0.v11 subf ]

/-- The clipped targets and the entry taken at them: the constant 0, @clip's three operations, the trailing unit axis,
    @take_along_axis's twenty-two, and the reshape back to [8, 1024]. -/
abbrev opsB : List (HloOp τ sig (Elt F)) :=
  [ nullary main_c (constantI S_ 32 0#32),
    TRef.unary (.of main_c : TRef sig ⟨S_, .i32⟩) main_call1.v0 id,
    TRef.unary main_call1.v0 main_call1.v1 (broadcastInDim S8x1024 ![] bcast_S_S8x1024),
    TRef.binary main_call1.v1 (.of main_arg2 : TRef sig ⟨S8x1024, .i32⟩) main_call1.v2 maxsi,
    unary main_v5 main_v6 (broadcastInDim S8x1024x1 ![0, 1] bcast_S8x1024_S8x1024x1_0_1 : (⟨S8x1024, .i32⟩ : BufTy).Contents (Elt F) → (⟨S8x1024x1, .i32⟩ : BufTy).Contents (Elt F)),
    TRef.nullary main_call2.c (constantI S_ 32 0#32),
    TRef.unary main_call2.c main_call2.v0 (broadcastInDim S8x1024x1 ![] bcast_S_S8x1024x1),
    TRef.binary (.of main_v6 : TRef sig ⟨S8x1024x1, .i32⟩) main_call2.v0 main_call2.v1 (cmpi .slt),
    TRef.nullary main_call2.c_0 (constantI S_ 32 32000#32),
    TRef.unary main_call2.c_0 main_call2.v2 (broadcastInDim S8x1024x1 ![] bcast_S_S8x1024x1),
    TRef.binary (.of main_v6 : TRef sig ⟨S8x1024x1, .i32⟩) main_call2.v2 main_call2.v3 addi,
    TRef.ternary main_call2.v1 main_call2.v3 (.of main_v6 : TRef sig ⟨S8x1024x1, .i32⟩) main_call2.v4 select,
    TRef.reshape main_call2.v4 main_call2.v5 rfl shapeCasts_S8x1024x1_S8x1024x1x1,
    TRef.nullary main_call2.c_1 (constantI S1 32 31999#32),
    TRef.nullary main_call2.c_2 (constantI S_ 32 0#32),
    TRef.unary main_call2.c_2 main_call2.v6 (broadcastInDim S8x1024x1x1 ![] bcast_S_S8x1024x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x1024x1x1 ![0, 1, 2, 3] bcast_S1x1x1x1_S8x1024x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x1024x1x1_S8x1024x1_d3 h_S_),
    TRef.binary (.of main_v4 : TRef sig ⟨S8x1024x32000, .f32⟩) main_call2.v5 main_call2.v13 (fun x i => Host.gather gather_S8x1024x32000_S8x1024x1x1_S8x1024x1_n_2_01_01_2_3_111 x i),
    TRef.nullary main_call2.cst (constant S_ .f32 0x7FC00000#32),
    TRef.unary main_call2.cst main_call2.v14 (broadcastInDim S8x1024x1 ![] bcast_S_S8x1024x1),
    TRef.ternary main_call2.v12 main_call2.v13 main_call2.v14 main_call2.v15 select,
    reshape main_v7 main_v8 rfl shapeCasts_S8x1024x1_S8x1024 ]

/-- The loss chain after the per-token values: the mask, the masked means, the log-odds, @log_sigmoid's operations
    (with @softplus's fourteen at its call), and the final scalars. -/
abbrev opsC : List (HloOp τ sig (Elt F)) :=
  [ nullary main_c_0 (constantI S_ 32 4294967196#32),
    unary main_c_0 main_v9 (broadcastInDim S8x1024 ![] bcast_S_S8x1024 : (⟨S_, .i32⟩ : BufTy).Contents (Elt F) → (⟨S8x1024, .i32⟩ : BufTy).Contents (Elt F)),
    binary main_arg2 main_v9 main_v10 (cmpi .ne : (⟨S8x1024, .i32⟩ : BufTy).Contents (Elt F) → (⟨S8x1024, .i32⟩ : BufTy).Contents (Elt F) → (⟨S8x1024, .i1⟩ : BufTy).Contents (Elt F)),
    unary main_v10 main_v11 (uitofp .f32 : (⟨S8x1024, .i1⟩ : BufTy).Contents (Elt F) → (⟨S8x1024, .f32⟩ : BufTy).Contents (Elt F)),
    binary main_v8 main_v11 main_v12 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v12 main_cst main_v13 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    nullary main_cst_1 (constant S_ .f32 0x00000000#32),
    binary main_v11 main_cst_1 main_v14 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    nullary main_cst_2 (constant S_ .f32 0x3F800000#32),
    unary main_cst_2 main_v15 (broadcastInDim S8 ![] bcast_S_S8 : (⟨S_, .f32⟩ : BufTy).Contents (Elt F) → (⟨S8, .f32⟩ : BufTy).Contents (Elt F)),
    binary main_v14 main_v15 main_v16 (maximumf : (⟨S8, .f32⟩ : BufTy).Contents (Elt F) → (⟨S8, .f32⟩ : BufTy).Contents (Elt F) → (⟨S8, .f32⟩ : BufTy).Contents (Elt F)),
    binary main_v13 main_v16 main_v17 (Host.divf : (⟨S8, .f32⟩ : BufTy).Contents (Elt F) → (⟨S8, .f32⟩ : BufTy).Contents (Elt F) → (⟨S8, .f32⟩ : BufTy).Contents (Elt F)),
    unary main_v17 main_v18 ((extractStridedSlice S4 ![0] · slices_S8_S4_0) : (⟨S8, .f32⟩ : BufTy).Contents (Elt F) → (⟨S4, .f32⟩ : BufTy).Contents (Elt F)),
    unary main_v17 main_v19 ((extractStridedSlice S4 ![4] · slices_S8_S4_4) : (⟨S8, .f32⟩ : BufTy).Contents (Elt F) → (⟨S4, .f32⟩ : BufTy).Contents (Elt F)),
    unary main_v11 main_v20 ((extractStridedSlice S4x1024 ![0, 0] · slices_S8x1024_S4x1024_0_0) : (⟨S8x1024, .f32⟩ : BufTy).Contents (Elt F) → (⟨S4x1024, .f32⟩ : BufTy).Contents (Elt F)),
    unary main_v8 main_v21 ((extractStridedSlice S4x1024 ![0, 0] · slices_S8x1024_S4x1024_0_0) : (⟨S8x1024, .f32⟩ : BufTy).Contents (Elt F) → (⟨S4x1024, .f32⟩ : BufTy).Contents (Elt F)),
    binary main_v21 main_v20 main_v22 (mulf : (⟨S4x1024, .f32⟩ : BufTy).Contents (Elt F) → (⟨S4x1024, .f32⟩ : BufTy).Contents (Elt F) → (⟨S4x1024, .f32⟩ : BufTy).Contents (Elt F)),
    nullary main_cst_3 (constant S_ .f32 0x00000000#32),
    binary main_v22 main_cst_3 main_v23 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)),
    nullary main_cst_4 (constant S_ .f32 0x00000000#32),
    binary main_v20 main_cst_4 main_v25 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    nullary main_cst_5 (constant S_ .f32 0x3F800000#32),
    binary main_v25 main_cst_5 main_v26 (maximumf : (⟨S_, .f32⟩ : BufTy).Contents (Elt F) → (⟨S_, .f32⟩ : BufTy).Contents (Elt F) → (⟨S_, .f32⟩ : BufTy).Contents (Elt F)),
    binary main_v24 main_v26 main_v27 (Host.divf : (⟨S_, .f32⟩ : BufTy).Contents (Elt F) → (⟨S_, .f32⟩ : BufTy).Contents (Elt F) → (⟨S_, .f32⟩ : BufTy).Contents (Elt F)),
    binary main_v18 main_v19 main_v28 (subf : (⟨S4, .f32⟩ : BufTy).Contents (Elt F) → (⟨S4, .f32⟩ : BufTy).Contents (Elt F) → (⟨S4, .f32⟩ : BufTy).Contents (Elt F)),
    unary main_v18 main_v29 (Host.exp : (⟨S4, .f32⟩ : BufTy).Contents (Elt F) → (⟨S4, .f32⟩ : BufTy).Contents (Elt F)),
    unary main_v29 main_v30 (Host.negf : (⟨S4, .f32⟩ : BufTy).Contents (Elt F) → (⟨S4, .f32⟩ : BufTy).Contents (Elt F)),
    unary main_v30 main_v31 (Host.log1p : (⟨S4, .f32⟩ : BufTy).Contents (Elt F) → (⟨S4, .f32⟩ : BufTy).Contents (Elt F)),
    unary main_v19 main_v32 (Host.exp : (⟨S4, .f32⟩ : BufTy).Contents (Elt F) → (⟨S4, .f32⟩ : BufTy).Contents (Elt F)),
    unary main_v32 main_v33 (Host.negf : (⟨S4, .f32⟩ : BufTy).Contents (Elt F) → (⟨S4, .f32⟩ : BufTy).Contents (Elt F)),
    unary main_v33 main_v34 (Host.log1p : (⟨S4, .f32⟩ : BufTy).Contents (Elt F) → (⟨S4, .f32⟩ : BufTy).Contents (Elt F)),
    binary main_v31 main_v34 main_v35 (subf : (⟨S4, .f32⟩ : BufTy).Contents (Elt F) → (⟨S4, .f32⟩ : BufTy).Contents (Elt F) → (⟨S4, .f32⟩ : BufTy).Contents (Elt F)),
    binary main_v28 main_v35 main_v36 (subf : (⟨S4, .f32⟩ : BufTy).Contents (Elt F) → (⟨S4, .f32⟩ : BufTy).Contents (Elt F) → (⟨S4, .f32⟩ : BufTy).Contents (Elt F)),
    TRef.unary (.of main_v36 : TRef sig ⟨S4, .f32⟩) main_call3.v0 Host.negf,
    TRef.nullary main_call3.call0.cst (constant S_ .f32 0x00000000#32),
    TRef.unary main_call3.call0.cst main_call3.call0.v0 (broadcastInDim S4 ![] bcast_S_S4),
    TRef.binary main_call3.v0 main_call3.call0.v0 main_call3.call0.v1 maximumf,
    TRef.unary main_call3.call0.cst main_call3.call0.v2 (broadcastInDim S4 ![] bcast_S_S4),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4 ![] bcast_S_S4),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    nullary main_cst_6 (constant S_ .f32 0x00000000#32),
    binary main_v37 main_cst_6 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_7 (constant S_ .f32 0xBDCCCCCD#32),
    binary main_cst_7 main_v38 main_v39 (mulf : (⟨S_, .f32⟩ : BufTy).Contents (Elt F) → (⟨S_, .f32⟩ : BufTy).Contents (Elt F) → (⟨S_, .f32⟩ : BufTy).Contents (Elt F)),
    nullary main_cst_8 (constant S_ .f32 0x40800000#32),
    binary main_v39 main_cst_8 main_v40 (Host.divf : (⟨S_, .f32⟩ : BufTy).Contents (Elt F) → (⟨S_, .f32⟩ : BufTy).Contents (Elt F) → (⟨S_, .f32⟩ : BufTy).Contents (Elt F)),
    binary main_v27 main_v40 main_v41 (addf : (⟨S_, .f32⟩ : BufTy).Contents (Elt F) → (⟨S_, .f32⟩ : BufTy).Contents (Elt F) → (⟨S_, .f32⟩ : BufTy).Contents (Elt F)) ]

/-! ## The operations touch TensorCore buffers only, and each determines its result -/

theorem opsA_sub : (opsA : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩
theorem opsC_sub : (opsC : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., nullary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., binary_bufs_sub .., unary_bufs_sub .., nullary_bufs_sub .., binary_bufs_sub .., nullary_bufs_sub .., binary_bufs_sub .., binary_bufs_sub .., binary_bufs_sub .., unary_bufs_sub .., unary_bufs_sub .., unary_bufs_sub .., unary_bufs_sub .., unary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., nullary_bufs_sub .., binary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A property of every operation of three stretches holds of every operation of their concatenation. -/
theorem forall_append3 {α : Type} {p : α → Prop} {l₁ l₂ l₃ : List α} (h₁ : l₁.Forall p) (h₂ : l₂.Forall p)
    (h₃ : l₃.Forall p) : ∀ x ∈ l₁ ++ (l₂ ++ l₃), p x := by
  intro x hx
  rcases List.mem_append.1 hx with h | h
  · exact List.forall_iff_forall_mem.1 h₁ x h
  · rcases List.mem_append.1 h with h | h
    · exact List.forall_iff_forall_mem.1 h₂ x h
    · exact List.forall_iff_forall_mem.1 h₃ x h

theorem ops_sub : ((opsA ++ (opsB ++ opsC) : List (HloOp τ sig (Elt F)))).Forall fun op => op.bufs ⊆ tcRefs τ sig :=
  List.forall_iff_forall_mem.2 (forall_append3 opsA_sub opsB_sub opsC_sub)

theorem ops_fresh : ∀ op ∈ (opsA ++ (opsB ++ opsC) : List (HloOp τ sig (Elt F))), op.fresh = ∅ :=
  forall_append3 opsA_fresh opsB_fresh opsC_fresh

theorem scopedRefs_eq : (Finset.univ.filter fun b : Ref sig .tc => b.isScoped) = ∅ := by decide
theorem scopedSems_eq : (Finset.univ.filter fun sm : SemLoc sig => sm.isScoped .tc) = ∅ := by decide

/-! ## @main is the straight line -/

set_option maxRecDepth 8192 in
set_option maxHeartbeats 1000000 in
/-- @main is the three stretches in order: with the helper functions' bodies unfolded at their calls and sequencing
    computed, both sides are the same chain of operations. -/
theorem main_eq (c : Dev nD) : main (F := F) c = seq (opsA ++ (opsB ++ opsC)) := by
  rfl

end Cert.ReferenceIdeal.RVal

end
-- ==== Proof.RRunA.lean ====
/-
  The first stretch of the reference: what it leaves in %4 (the log-softmax of the logits) and that it writes no argument.
-/
import proofs.«404955_j35150012350893_2_alg».proof.Proof.ROps

noncomputable section

open Idealize.ShloMosaic Idealize.ShloMosaic.TcCoe Idealize.SL.Sem Idealize.ShloMosaic.StableHlo

namespace Cert.ReferenceIdeal.RVal

open Cert.ReferenceIdeal Cert.ReferenceIdeal.Facts₀

variable {F : FTy → Type} [FloatOps F]

/-- The first stretch with each of @log_softmax's operations written over its call's buffers directly. -/
abbrev opsA' : List (HloOp τ sig (Elt F)) :=
  [ binary main_arg1 main_arg0 main_v0 ((fun l r => Host.dotGeneral dot_S8x1024x2048_S32000x2048_S8x1024x32000_2_1_01_0_n_n none l r) : (⟨S8x1024x2048, .f32⟩ : BufTy).Contents (Elt F) → (⟨S32000x2048, .f32⟩ : BufTy).Contents (Elt F) → (⟨S8x1024x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x1024x32000 ![0, 1, 2] bcast_S1x1x32000_S8x1024x32000_0_1_2 : (⟨S1x1x32000, .f32⟩ : BufTy).Contents (Elt F) → (⟨S8x1024x32000, .f32⟩ : BufTy).Contents (Elt F)),
    binary main_v0 main_v2 main_v3 (addf : (⟨S8x1024x32000, .f32⟩ : BufTy).Contents (Elt F) → (⟨S8x1024x32000, .f32⟩ : BufTy).Contents (Elt F) → (⟨S8x1024x32000, .f32⟩ : BufTy).Contents (Elt F)),
    nullary main_call0_cst (constant S_ .f32 0xFF800000#32),
    binary main_v3 main_call0_cst main_call0_v0 (fun x v => Host.reduce FloatOps.maximumf x v reducesTo_S8x1024x32000_S8x1024_d2 h_S_),
    nullary main_call0_cst_0 (constant S_ .f32 0xFF800000#32),
    unary main_call0_cst_0 main_call0_v1 (broadcastInDim S8x1024 ![] bcast_S_S8x1024),
    binary main_call0_v1 main_call0_v0 main_call0_v2 maximumf,
    unary main_call0_v2 main_call0_v3 (broadcastInDim S8x1024x1 ![0, 1] bcast_S8x1024_S8x1024x1_0_1),
    unary main_call0_v3 main_call0_v4 (broadcastInDim S8x1024x32000 ![0, 1, 2] bcast_S8x1024x1_S8x1024x32000_0_1_2),
    binary main_v3 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S8x1024x32000_S8x1024_d2 h_S_),
    unary main_call0_v7 main_call0_v8 (broadcastInDim S8x1024x1 ![0, 1] bcast_S8x1024_S8x1024x1_0_1),
    unary main_call0_v8 main_call0_v9 Host.log,
    unary main_call0_v9 main_call0_v10 (broadcastInDim S8x1024x32000 ![0, 1, 2] bcast_S8x1024x1_S8x1024x32000_0_1_2),
    binary main_call0_v5 main_call0_v10 main_v4 subf ]

/-- A binary operation over typed references whose carried types are the buffers' own is the plain operation: the
    transport of contents along a type equal to itself is the identity. -/
theorem binary_plain {Val : EltTy → Type} (a b y : Ref sig .tc) (da : a.space ≠ .host) (sa : a.isScoped = false)
    (db : b.space ≠ .host) (sb : b.isScoped = false) (dy : y.space ≠ .host) (sy : y.isScoped = false)
    (f : a.ty.Contents Val → b.ty.Contents Val → y.ty.Contents Val) :
    (TRef.binary (τ := τ) (⟨a, rfl, da, sa⟩ : TRef sig a.ty) (⟨b, rfl, db, sb⟩ : TRef sig b.ty) (⟨y, rfl, dy, sy⟩ : TRef sig y.ty) f :
        HloOp τ sig Val)
      = StableHlo.binary a b y f ⟨da, sa⟩ ⟨db, sb⟩ ⟨dy, sy⟩ := rfl

/-- The two spellings are the same list, operation by operation: over a literal buffer the transport of contents along
    the buffer's type is the identity (the row maximum's operation through the general statement above, so that the
    reduction itself is never opened). -/
theorem opsA_eq : (opsA : List (HloOp τ sig (Elt F))) = opsA' := by
  iterate 5 (refine congrArg₂ List.cons (by rfl) ?_)
  refine congrArg₂ List.cons (binary_plain main_v3 main_call0_cst main_call0_v0 _ _ _ _ _ _ _) ?_
  iterate 13 (refine congrArg₂ List.cons (by rfl) ?_)
  rfl

set_option maxRecDepth 8192 in
set_option maxHeartbeats 1000000 in
/-- The first stretch leaves the log-softmax of the logits in %4. -/
theorem A_v4 (W : Valuation τ sig (Elt Ideal)) :
    after (opsA (F := Ideal)) W (main_v4 : DevRef τ sig)
      = refLogSoftmax (refLogits (W (main_arg0 : DevRef τ sig)) (W (main_arg1 : DevRef τ sig)) (W (main_arg3 : DevRef τ sig))) := by
  rw [opsA_eq]
  after_results_simp
  rfl

set_option maxHeartbeats 1000000 in
/-- The first stretch writes no argument. -/
theorem A_args (W : Valuation τ sig (Elt Ideal)) :
    after (opsA (F := Ideal)) W (main_arg0 : DevRef τ sig) = W (main_arg0 : DevRef τ sig)
      ∧ after (opsA (F := Ideal)) W (main_arg1 : DevRef τ sig) = W (main_arg1 : DevRef τ sig)
      ∧ after (opsA (F := Ideal)) W (main_arg2 : DevRef τ sig) = W (main_arg2 : DevRef τ sig)
      ∧ after (opsA (F := Ideal)) W (main_arg3 : DevRef τ sig) = W (main_arg3 : DevRef τ sig) := by
  rw [opsA_eq]
  refine ⟨?_, ?_, ?_, ?_⟩ <;> after_results_simp

end Cert.ReferenceIdeal.RVal

end
-- ==== Proof.RRunB.lean ====
/-
  The second stretch of the reference: what it leaves in %8 (the entry of %4's rows at the clipped targets) and that it
  writes no argument.

  The stretch is read in five pieces, each a short list whose result is one function of the contents it starts from:
  the targets clipped below at 0 with a trailing unit axis; the index with negative words wrapped by 32000 and a second
  unit axis; the test 0 ≤ index ≤ 31999 reduced by and; the gathered entries where the test passes, the NaN pattern
  elsewhere; the reshape to [8, 1024]. A piece leaves the buffers it does not write as they were, so the pieces
  compose, and the take of the reference's definitions is the three middle pieces composed.
-/
import proofs.«404955_j35150012350893_2_alg».proof.Proof.ROps

noncomputable section

open Idealize.ShloMosaic Idealize.ShloMosaic.TcCoe Idealize.SL.Sem Idealize.ShloMosaic.StableHlo

namespace Cert.ReferenceIdeal.RVal

open Cert.ReferenceIdeal Cert.ReferenceIdeal.Facts₀

namespace RRunB

/-- Running one list of operations after another is running their concatenation. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The constant 0, the three operations of the clip, and the trailing unit axis. -/
abbrev ops1 : List (HloOp τ sig (Elt Ideal)) :=
  [ nullary main_c (constantI S_ 32 0#32),
    TRef.unary (.of main_c : TRef sig ⟨S_, .i32⟩) main_call1.v0 id,
    TRef.unary main_call1.v0 main_call1.v1 (broadcastInDim S8x1024 ![] bcast_S_S8x1024),
    TRef.binary main_call1.v1 (.of main_arg2 : TRef sig ⟨S8x1024, .i32⟩) main_call1.v2 maxsi,
    unary main_v5 main_v6 (broadcastInDim S8x1024x1 ![0, 1] bcast_S8x1024_S8x1024x1_0_1 : (⟨S8x1024, .i32⟩ : BufTy).Contents (Elt Ideal) → (⟨S8x1024x1, .i32⟩ : BufTy).Contents (Elt Ideal)) ]

/-- The wrap of negative indices by 32000 and the reshape to a second trailing unit axis. -/
abbrev ops2 : List (HloOp τ sig (Elt Ideal)) :=
  [ TRef.nullary main_call2.c (constantI S_ 32 0#32),
    TRef.unary main_call2.c main_call2.v0 (broadcastInDim S8x1024x1 ![] bcast_S_S8x1024x1),
    TRef.binary (.of main_v6 : TRef sig ⟨S8x1024x1, .i32⟩) main_call2.v0 main_call2.v1 (cmpi .slt),
    TRef.nullary main_call2.c_0 (constantI S_ 32 32000#32),
    TRef.unary main_call2.c_0 main_call2.v2 (broadcastInDim S8x1024x1 ![] bcast_S_S8x1024x1),
    TRef.binary (.of main_v6 : TRef sig ⟨S8x1024x1, .i32⟩) main_call2.v2 main_call2.v3 addi,
    TRef.ternary main_call2.v1 main_call2.v3 (.of main_v6 : TRef sig ⟨S8x1024x1, .i32⟩) main_call2.v4 select,
    TRef.reshape main_call2.v4 main_call2.v5 rfl shapeCasts_S8x1024x1_S8x1024x1x1 ]

/-- The test 0 ≤ index ≤ 31999 and its and-reduce over the last axis. -/
abbrev ops3 : List (HloOp τ sig (Elt Ideal)) :=
  [ TRef.nullary main_call2.c_1 (constantI S1 32 31999#32),
    TRef.nullary main_call2.c_2 (constantI S_ 32 0#32),
    TRef.unary main_call2.c_2 main_call2.v6 (broadcastInDim S8x1024x1x1 ![] bcast_S_S8x1024x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x1024x1x1 ![0, 1, 2, 3] bcast_S1x1x1x1_S8x1024x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x1024x1x1_S8x1024x1_d3 h_S_) ]

/-- The gather, the NaN pattern, and the select between them. -/
abbrev ops4 : List (HloOp τ sig (Elt Ideal)) :=
  [ TRef.binary (.of main_v4 : TRef sig ⟨S8x1024x32000, .f32⟩) main_call2.v5 main_call2.v13 (fun x i => Host.gather gather_S8x1024x32000_S8x1024x1x1_S8x1024x1_n_2_01_01_2_3_111 x i),
    TRef.nullary main_call2.cst (constant (F := Ideal) S_ .f32 0x7FC00000#32),
    TRef.unary main_call2.cst main_call2.v14 (broadcastInDim S8x1024x1 ![] bcast_S_S8x1024x1),
    TRef.ternary main_call2.v12 main_call2.v13 main_call2.v14 main_call2.v15 select ]

/-- The reshape back to [8, 1024]. -/
abbrev ops5 : List (HloOp τ sig (Elt Ideal)) :=
  [ reshape main_v7 main_v8 rfl shapeCasts_S8x1024x1_S8x1024 ]

/-- The second stretch is the five pieces in order. -/
theorem opsB_eq : (opsB (F := Ideal)) = ops1 ++ (ops2 ++ (ops3 ++ (ops4 ++ ops5))) := rfl

/-- The index with negative words wrapped by 32000, given one more trailing unit axis. -/
def wrapped (ix : IVec S8x1024x1 32) : IVec S8x1024x1x1 32 :=
  shapeCast S8x1024x1x1
    (select (cmpi .slt ix (broadcastInDim S8x1024x1 ![] bcast_S_S8x1024x1 (constantI S_ 32 0#32)))
      (addi ix (broadcastInDim S8x1024x1 ![] bcast_S_S8x1024x1 (constantI S_ 32 32000#32))) ix)
    shapeCasts_S8x1024x1_S8x1024x1x1

/-- The test 0 ≤ index ≤ 31999, reduced by and over the trailing unit axis. -/
def inRange (y : IVec S8x1024x1x1 32) : IVec S8x1024x1 1 :=
  Host.reduce IntOp.andi
    (andi (cmpi .sge y (broadcastInDim S8x1024x1x1 ![] bcast_S_S8x1024x1x1 (constantI S_ 32 0#32)))
      (cmpi .sle y (broadcastInDim S8x1024x1x1 ![0, 1, 2, 3] bcast_S1x1x1x1_S8x1024x1x1_0_1_2_3
        (broadcastInDim S1x1x1x1 ![3] bcast_S1_S1x1x1x1_3 (constantI S1 32 31999#32)))))
    (constantI S_ 1 1#1) reducesTo_S8x1024x1x1_S8x1024x1_d3 h_S_

/-- The gathered entries where the test passes, the NaN pattern elsewhere. -/
def picked (x : FVec Ideal S8x1024x32000 .f32) (y : IVec S8x1024x1x1 32) (ok : IVec S8x1024x1 1) : FVec Ideal S8x1024x1 .f32 :=
  select ok (Host.gather gather_S8x1024x32000_S8x1024x1x1_S8x1024x1_n_2_01_01_2_3_111 x y)
    (broadcastInDim S8x1024x1 ![] bcast_S_S8x1024x1 (constant (F := Ideal) S_ .f32 0x7FC00000#32))

/-- The take is the three pieces composed. -/
theorem refTake_eq (x : FVec Ideal S8x1024x32000 .f32) (ix : IVec S8x1024x1 32) :
    refTake x ix = picked x (wrapped ix) (inRange (wrapped ix)) := rfl

theorem ops1_v6 (V : Valuation τ sig (Elt Ideal)) :
    after ops1 V (main_v6 : DevRef τ sig) = refIdx (V (main_arg2 : DevRef τ sig)) := by
  after_results_simp
  rfl
theorem ops1_v4 (V : Valuation τ sig (Elt Ideal)) :
    after ops1 V (main_v4 : DevRef τ sig) = V (main_v4 : DevRef τ sig) := by
  after_results_simp

theorem ops2_v5 (V : Valuation τ sig (Elt Ideal)) :
    after ops2 V (main_call2_v5 : DevRef τ sig) = wrapped (V (main_v6 : DevRef τ sig)) := by
  after_results_simp
  rfl
theorem ops2_v4 (V : Valuation τ sig (Elt Ideal)) :
    after ops2 V (main_v4 : DevRef τ sig) = V (main_v4 : DevRef τ sig) := by
  after_results_simp

theorem ops3_v12 (V : Valuation τ sig (Elt Ideal)) :
    after ops3 V (main_call2_v12 : DevRef τ sig) = inRange (V (main_call2_v5 : DevRef τ sig)) := by
  after_results_simp
  rfl
theorem ops3_v5 (V : Valuation τ sig (Elt Ideal)) :
    after ops3 V (main_call2_v5 : DevRef τ sig) = V (main_call2_v5 : DevRef τ sig) := by
  after_results_simp
theorem ops3_v4 (V : Valuation τ sig (Elt Ideal)) :
    after ops3 V (main_v4 : DevRef τ sig) = V (main_v4 : DevRef τ sig) := by
  after_results_simp

theorem ops4_v7 (V : Valuation τ sig (Elt Ideal)) :
    after ops4 V (main_v7 : DevRef τ sig)
      = picked (V (main_v4 : DevRef τ sig)) (V (main_call2_v5 : DevRef τ sig)) (V (main_call2_v12 : DevRef τ sig)) := by
  after_results_simp
  rfl

theorem ops5_v8 (V : Valuation τ sig (Elt Ideal)) :
    after ops5 V (main_v8 : DevRef τ sig) = shapeCast S8x1024 (V (main_v7 : DevRef τ sig)) shapeCasts_S8x1024x1_S8x1024 := by
  after_results_simp
  rfl

end RRunB

/-- The second stretch leaves in %8 the entry of %4's rows at the clipped targets, as an [8, 1024] array. -/
theorem B_v8 (W : Valuation τ sig (Elt Ideal)) :
    after (opsB (F := Ideal)) W (main_v8 : DevRef τ sig)
      = shapeCast S8x1024 (refTake (W (main_v4 : DevRef τ sig)) (refIdx (W (main_arg2 : DevRef τ sig)))) shapeCasts_S8x1024x1_S8x1024 := by
  rw [RRunB.opsB_eq, RRunB.after_app, RRunB.after_app, RRunB.after_app, RRunB.after_app]
  rw [RRunB.ops5_v8, RRunB.ops4_v7, RRunB.ops3_v12, RRunB.ops3_v5, RRunB.ops3_v4, RRunB.ops2_v5, RRunB.ops2_v4,
    RRunB.ops1_v6, RRunB.ops1_v4, RRunB.refTake_eq]

/-- The second stretch writes no argument. -/
theorem B_args (W : Valuation τ sig (Elt Ideal)) :
    after (opsB (F := Ideal)) W (main_arg0 : DevRef τ sig) = W (main_arg0 : DevRef τ sig)
      ∧ after (opsB (F := Ideal)) W (main_arg1 : DevRef τ sig) = W (main_arg1 : DevRef τ sig)
      ∧ after (opsB (F := Ideal)) W (main_arg2 : DevRef τ sig) = W (main_arg2 : DevRef τ sig)
      ∧ after (opsB (F := Ideal)) W (main_arg3 : DevRef τ sig) = W (main_arg3 : DevRef τ sig) := by
  refine ⟨?_, ?_, ?_, ?_⟩ <;> after_results_simp

end Cert.ReferenceIdeal.RVal

end
-- ==== Proof.RRunC.lean ====
/-
  The third stretch of the reference: what it leaves in %41 (the loss chain of %8 and the targets) and that it writes no
  argument.
-/
import proofs.«404955_j35150012350893_2_alg».proof.Proof.ROps

noncomputable section

open Idealize.ShloMosaic Idealize.ShloMosaic.TcCoe Idealize.SL.Sem Idealize.ShloMosaic.StableHlo

namespace Cert.ReferenceIdeal.RVal

open Cert.ReferenceIdeal Cert.ReferenceIdeal.Facts₀

set_option maxRecDepth 8192 in
set_option maxHeartbeats 1000000 in
/-- The third stretch leaves in %41 the loss chain of %8 and the targets. -/
theorem C_v41 (W : Valuation τ sig (Elt Ideal)) :
    after (opsC (F := Ideal)) W (main_v41 : DevRef τ sig)
      = Spec.tail (W (main_v8 : DevRef τ sig)) (W (main_arg2 : DevRef τ sig)) := by
  after_results_simp
  rfl

/-- The third stretch writes no argument. -/
theorem C_args (W : Valuation τ sig (Elt Ideal)) :
    after (opsC (F := Ideal)) W (main_arg0 : DevRef τ sig) = W (main_arg0 : DevRef τ sig)
      ∧ after (opsC (F := Ideal)) W (main_arg1 : DevRef τ sig) = W (main_arg1 : DevRef τ sig)
      ∧ after (opsC (F := Ideal)) W (main_arg2 : DevRef τ sig) = W (main_arg2 : DevRef τ sig)
      ∧ after (opsC (F := Ideal)) W (main_arg3 : DevRef τ sig) = W (main_arg3 : DevRef τ sig) := by
  refine ⟨?_, ?_, ?_, ?_⟩ <;> after_results_simp

end Cert.ReferenceIdeal.RVal

end
-- ==== Proof.RRun.lean ====
/-
  The reference program's run: a straight line of host operations (the four helper functions inlined at their call
  sites), so every weakly fair execution terminates with the result buffer at the operations' composed term of the
  arguments — the per-token values of RDefs followed by the loss chain — and the arguments unchanged.
-/
import proofs.«404955_j35150012350893_2_alg».proof.Proof.RDefs
import proofs.«404955_j35150012350893_2_alg».proof.Proof.ROps
import proofs.«404955_j35150012350893_2_alg».proof.Proof.RRunA
import proofs.«404955_j35150012350893_2_alg».proof.Proof.RRunB
import proofs.«404955_j35150012350893_2_alg».proof.Proof.RRunC
import Idealize.ShloMosaic.Lib.StableHlo.Run
import Idealize.ShloMosaic.Adequacy
import Idealize.ShloMosaic.Init

noncomputable section

open Idealize.ShloMosaic Idealize.ShloMosaic.TcCoe Idealize.SL.Sem Idealize.ShloMosaic.StableHlo

namespace Cert.ReferenceIdeal.RVal

open Cert.ReferenceIdeal

/-- Contents after two stretches in a row: the second's fold over the first's. -/
private theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- After the whole line the result buffer holds the loss chain of the reference's per-token values. -/
theorem out_eq (V : Valuation τ sig (Elt Ideal)) :
    after (opsA (F := Ideal) ++ (opsB ++ opsC)) V (main_v41 : DevRef τ sig)
      = Spec.tail (refPtl (V (main_arg0 : DevRef τ sig)) (V (main_arg1 : DevRef τ sig)) (V (main_arg2 : DevRef τ sig))
          (V (main_arg3 : DevRef τ sig))) (V (main_arg2 : DevRef τ sig)) := by
  rw [after_app, after_app, C_v41, B_v8, (B_args _).2.2.1, A_v4, (A_args _).2.2.1]
  rfl

/-- After the whole line the arguments are as they were. -/
theorem args_eq (V : Valuation τ sig (Elt Ideal)) :
    after (opsA (F := Ideal) ++ (opsB ++ opsC)) V (main_arg0 : DevRef τ sig) = V (main_arg0 : DevRef τ sig)
      ∧ after (opsA (F := Ideal) ++ (opsB ++ opsC)) V (main_arg1 : DevRef τ sig) = V (main_arg1 : DevRef τ sig)
      ∧ after (opsA (F := Ideal) ++ (opsB ++ opsC)) V (main_arg2 : DevRef τ sig) = V (main_arg2 : DevRef τ sig)
      ∧ after (opsA (F := Ideal) ++ (opsB ++ opsC)) V (main_arg3 : DevRef τ sig) = V (main_arg3 : DevRef τ sig) := by
  refine ⟨?_, ?_, ?_, ?_⟩
  · rw [after_app, after_app, (C_args _).1, (B_args _).1, (A_args _).1]
  · rw [after_app, after_app, (C_args _).2.1, (B_args _).2.1, (A_args _).2.1]
  · rw [after_app, after_app, (C_args _).2.2.1, (B_args _).2.2.1, (A_args _).2.2.1]
  · rw [after_app, after_app, (C_args _).2.2.2, (B_args _).2.2.2, (A_args _).2.2.2]

variable (m : (ℓ : Loc nD τ sig) → Buf (Elt Ideal) ℓ) (ρ : Dev nD → PrngReg)

/-- The run: the result is the loss chain of the reference's per-token values and the targets; the arguments are unchanged. -/
theorem run : θ_run (defs (F := Ideal)) (onTc (τ := τ) (main (F := Ideal))) ⟨m, fun _ => 0, ρ⟩ (fun r => ∀ c : Dev nD,
      r.2.mem ((c.tc : Thread nD τ).loc main_v41)
        = (Spec.tail (refPtl (m ((c.tc : Thread nD τ).loc main_arg0)) (m ((c.tc : Thread nD τ).loc main_arg1))
            (m ((c.tc : Thread nD τ).loc main_arg2)) (m ((c.tc : Thread nD τ).loc main_arg3)))
            (m ((c.tc : Thread nD τ).loc main_arg2)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v41).trans (out_eq (launchContents m c)),
      (h c main_arg0).trans (args_eq (launchContents m c)).1,
      (h c main_arg1).trans (args_eq (launchContents m c)).2.1,
      (h c main_arg2).trans (args_eq (launchContents m c)).2.2.1,
      (h c main_arg3).trans (args_eq (launchContents m c)).2.2.2⟩)
    (run_seq scopedRefs_eq scopedSems_eq defs main (fun _ => opsA ++ (opsB ++ opsC)) main_eq (fun _ => ops_sub) m ρ
      (fun _ => ops_fresh))

end Cert.ReferenceIdeal.RVal

end
-- ==== Proof.RGather.lean ====
/-
  The batched gather along the vocabulary axis, read at one token: with batching axes (b, t) and a start index inside
  the vocabulary, the gathered entry is the operand's entry at that vocabulary column.
-/
import proofs.«404955_j35150012350893_2_alg».proof.Proof.RDefs
import Idealize.ShloMosaic.Lib.ValueIdx

noncomputable section

open Idealize.ShloMosaic Idealize.SL.Sem
open Idealize.ShloMosaic.ValueIdx

namespace Cert.ReferenceIdeal.RVal

open Cert.ReferenceIdeal Cert.ReferenceIdeal.Facts₀

/-- The reference's gather record, under a short name. -/
private abbrev gd : GatherDims S8x1024x32000 S8x1024x1x1 S8x1024x1 :=
  gather_S8x1024x32000_S8x1024x1x1_S8x1024x1_n_2_01_01_2_3_111

/-- On the first batching axis the operand index is the result's first coordinate. -/
private theorem coord0 (ix : IVec S8x1024x1x1 32) (b : Fin 8) (t : Fin 1024) :
    gd.start (ix3 b t (0 : Fin 1)) ix (0 : Fin 3) + gd.batchCoord (ix3 b t (0 : Fin 1)) (0 : Fin 3)
      + gd.offCoord (ix3 b t (0 : Fin 1)) (0 : Fin 3) = b.val := by
  rw [gd.start_batching _ ix (0 : Fin 3) (by decide), gd.offCoord_eq_zero _ (0 : Fin 3) (by decide), Nat.zero_add,
    Nat.add_zero]
  unfold GatherDims.batchCoord
  rw [dif_pos (by decide)]
  rfl

/-- On the second batching axis the operand index is the result's second coordinate. -/
private theorem coord1 (ix : IVec S8x1024x1x1 32) (b : Fin 8) (t : Fin 1024) :
    gd.start (ix3 b t (0 : Fin 1)) ix (1 : Fin 3) + gd.batchCoord (ix3 b t (0 : Fin 1)) (1 : Fin 3)
      + gd.offCoord (ix3 b t (0 : Fin 1)) (1 : Fin 3) = t.val := by
  rw [gd.start_batching _ ix (1 : Fin 3) (by decide), gd.offCoord_eq_zero _ (1 : Fin 3) (by decide), Nat.zero_add,
    Nat.add_zero]
  unfold GatherDims.batchCoord
  rw [dif_pos (by decide)]
  rfl

/-- On the vocabulary axis (collapsed, named by the start index map) the operand index is the start index read
    signed and clamped into [0, 31999]: for a word inside that range, the word itself. -/
private theorem coord2 (ix : IVec S8x1024x1x1 32) (b : Fin 8) (t : Fin 1024) (v : Fin 32000)
    (hv : (ix (ix4 b t 0 0)).toInt = (v.val : ℤ)) :
    gd.start (ix3 b t (0 : Fin 1)) ix (2 : Fin 3) + gd.batchCoord (ix3 b t (0 : Fin 1)) (2 : Fin 3)
      + gd.offCoord (ix3 b t (0 : Fin 1)) (2 : Fin 3) = v.val := by
  rw [gd.batchCoord_eq_zero _ (2 : Fin 3) (by decide), gd.offCoord_eq_zero _ (2 : Fin 3) (by decide), Nat.add_zero]
  unfold GatherDims.start
  rw [dif_pos (by decide)]
  have hsi : gd.siIdx (ix3 b t (0 : Fin 1)) ⟨List.idxOf (2 : Fin 3) gd.startIndexMap,
      List.idxOf_lt_length_iff.2 (by decide)⟩ = ix4 b t 0 0 := by
    funext c; refine Fin.ext ?_
    match c with
    | ⟨0, _⟩ => rfl
    | ⟨1, _⟩ => rfl
    | ⟨2, _⟩ => rfl
    | ⟨3, _⟩ => rfl
  rw [hsi, hv, Int.toNat_natCast]
  have hlt := v.isLt
  show min v.val (32000 - 1) = v.val
  omega

/-- The gather of RDefs' `refTake` at token (b, t): for an index word inside [0, 31999] it reads the operand at that column. -/
theorem gather_apply (x : FVec Ideal S8x1024x32000 .f32) (ix : IVec S8x1024x1x1 32) (b : Fin 8) (t : Fin 1024)
    (v : Fin 32000) (hv : (ix (ix4 b t 0 0)).toInt = (v.val : ℤ)) :
    (Host.gather gather_S8x1024x32000_S8x1024x1x1_S8x1024x1_n_2_01_01_2_3_111 x ix : FVec Ideal S8x1024x1 .f32) (ix3 b t 0)
      = x (ix3 b t v) := by
  unfold Host.gather
  congr 1
  funext a
  refine Fin.ext ?_
  match a with
  | ⟨0, _⟩ => exact coord0 ix b t
  | ⟨1, _⟩ => exact coord1 ix b t
  | ⟨2, _⟩ => exact coord2 ix b t v hv

end Cert.ReferenceIdeal.RVal

end
-- ==== Proof.Words.lean ====
/-
  Facts about 32-bit words read as signed integers, for the clipped targets: the signed maximum with 0 and the signed
  minimum with 31999, and the comparisons that test an index against the vocabulary's range.
-/
import proofs.«404955_j35150012350893_2_alg».proof.Proof.Spec
import Idealize.ShloMosaic.PureOps

noncomputable section

open Idealize.ShloMosaic

namespace Cert.Spec

/-- The signed maximum of two words, read as integers, is the maximum of the integers. -/
private theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- The signed minimum of two words, read as integers, is the minimum of the integers. -/
private theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- A word whose signed value is not negative reads the same unsigned. -/
private theorem toNat_of_toInt_nonneg (r : BitVec 32) (h : 0 ≤ r.toInt) : r.toNat = r.toInt.toNat := by
  have hc := BitVec.toInt_eq_toNat_cond r
  have hlt := r.isLt
  split at hc <;> omega

/-- The two literal words, read signed. -/
private theorem toInt_zero_word : (0#32 : BitVec 32).toInt = 0 := by decide
private theorem toInt_top_word : (31999#32 : BitVec 32).toInt = 31999 := by decide

/-- The target clipped on both sides, as the kernel's program computes it (signed max with 0, then signed min with
    31999), is the natural number `clipT`. -/
theorem clip2_toNat (A : IVec S8x1024 32) (lo hi : IVec S8x1024 32) (hlo : ∀ i, lo i = 0#32) (hhi : ∀ i, hi i = 31999#32)
    (i : S8x1024.Idx) : ((minsi hi (maxsi lo A)) i).toNat = clipT (A i) := by
  -- At an index both operations act on the words there; the signed value is min 31999 (max 0 a), which is not negative.
  show (IntOp.minsi (hi i) (IntOp.maxsi (lo i) (A i))).toNat = clipT (A i)
  rw [hlo, hhi]
  have hv : (IntOp.minsi 31999#32 (IntOp.maxsi 0#32 (A i))).toInt = min 31999 (max 0 (A i).toInt) := by
    rw [toInt_minsi, toInt_maxsi, toInt_zero_word, toInt_top_word]
  rw [toNat_of_toInt_nonneg _ (by rw [hv]; omega), hv]
  unfold clipT
  congr 1
  omega

/-- The target clipped below only, as the reference computes it: for a target ≤ 31999 it lies in [0, 31999] and is `clipT`. -/
theorem clip1_facts (A : IVec S8x1024 32) (lo : IVec S8x1024 32) (hlo : ∀ i, lo i = 0#32) (i : S8x1024.Idx)
    (h : (A i).toInt ≤ 31999) :
    ((maxsi lo A) i).toInt = (clipT (A i) : ℤ) := by
  -- The signed value is max 0 a; with a ≤ 31999 the upper clip changes nothing.
  show (IntOp.maxsi (lo i) (A i)).toInt = (clipT (A i) : ℤ)
  rw [hlo, toInt_maxsi, toInt_zero_word]
  unfold clipT
  omega

/-- A word whose signed value is a natural number n ≤ 31999 is not below 0, is at least 0 and at most 31999, as the
    three signed comparisons read them. -/
theorem cmp_in_range (w : BitVec 32) (n : ℕ) (hn : n ≤ 31999) (hw : w.toInt = (n : ℤ)) :
    Scalar.cmpi .slt w 0#32 = 0#1 ∧ Scalar.cmpi .sge w 0#32 = 1#1 ∧ Scalar.cmpi .sle w 31999#32 = 1#1 ∧ w.toNat = n := by
  -- Each signed comparison of words is the comparison of their signed values, here n against 0 and against 31999.
  have h1 : w.slt 0#32 = false := by
    rw [Bool.eq_false_iff]; intro hh; rw [BitVec.slt_iff_toInt_lt, toInt_zero_word] at hh; omega
  have h2 : (0#32 : BitVec 32).sle w = true := by
    rw [BitVec.sle_iff_toInt_le, toInt_zero_word]; omega
  have h3 : w.sle 31999#32 = true := by
    rw [BitVec.sle_iff_toInt_le, toInt_top_word]; omega
  refine ⟨?_, ?_, ?_, ?_⟩
  · show BitVec.ofBool (w.slt 0#32) = 0#1
    rw [h1]; rfl
  · show BitVec.ofBool ((0#32 : BitVec 32).sle w) = 1#1
    rw [h2]; rfl
  · show BitVec.ofBool (w.sle 31999#32) = 1#1
    rw [h3]; rfl
  · rw [toNat_of_toInt_nonneg w (by omega), hw]; omega

end Cert.Spec

end
-- ==== Proof.RRead.lean ====
/-
  The reference's per-token values are the specification's: at token (b, t) the logits row is the dot products plus
  bias; the row maximum taken from −∞ is the maximum; the shifted exponentials summed from 0 are their sum; and for a
  target ≤ 31999 the index max(target, 0) is inside the vocabulary, so the in-range test passes and the gathered
  entry is the log-softmax at the clipped target.

  Each operation is read at one index (b, t, v): the contraction as a sum over the hidden coordinate, a broadcast at
  the coordinates it keeps, a one-axis reduction as a fold or a sum over that axis's coordinate, and the index side on
  32-bit words read as signed integers.
-/
import proofs.«404955_j35150012350893_2_alg».proof.Proof.RDefs
import proofs.«404955_j35150012350893_2_alg».proof.Proof.RGather
import proofs.«404955_j35150012350893_2_alg».proof.Proof.Words
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open Idealize.ShloMosaic Idealize.SL.Sem
open Idealize.ShloMosaic.ValueIdx

namespace Cert.ReferenceIdeal.RVal

open Cert.ReferenceIdeal Cert.ReferenceIdeal.Facts₀

namespace RRead

/-! ## The logits at an index -/

/-- The product of the input with the weight over the hidden axis, at token (b, t) and column v. -/
theorem dot_apply (A1 : FVec Ideal S8x1024x2048 .f32) (A0 : FVec Ideal S32000x2048 .f32)
    (b : Fin 8) (t : Fin 1024) (v : Fin 32000) :
    Host.dotGeneral dot_S8x1024x2048_S32000x2048_S8x1024x32000_2_1_01_0_n_n none A1 A0 (ix3 b t v)
      = ∑ h : Fin 2048, A1 (ix3 b t h) * A0 (ix2 v h) := by
  show FloatOps.dotGeneral _ none _ A1 A0 (ix3 b t v) = _
  rw [Ideal.dotGeneral_apply,
    ← Equiv.sum_comp (contrEquiv1 dot_S8x1024x2048_S32000x2048_S8x1024x32000_2_1_01_0_n_n 2048 rfl rfl).symm]
  refine Finset.sum_congr rfl fun c _ => ?_
  have c3 := contrEquiv1_symm_val dot_S8x1024x2048_S32000x2048_S8x1024x32000_2_1_01_0_n_n 2048 rfl rfl c
  have l3 : dot_S8x1024x2048_S32000x2048_S8x1024x32000_2_1_01_0_n_n.lhsIdx (ix3 b t v)
      ((contrEquiv1 _ 2048 rfl rfl).symm c) = ix3 b t c := by
    funext ax; apply Fin.ext
    match ax with
    | ⟨0, _⟩ => simp [DotDims.lhsIdx, dot_S8x1024x2048_S32000x2048_S8x1024x32000_2_1_01_0_n_n]; rfl
    | ⟨1, _⟩ => simp [DotDims.lhsIdx, dot_S8x1024x2048_S32000x2048_S8x1024x32000_2_1_01_0_n_n]; rfl
    | ⟨2, _⟩ => simp [DotDims.lhsIdx, dot_S8x1024x2048_S32000x2048_S8x1024x32000_2_1_01_0_n_n]; exact c3
  have r3 : dot_S8x1024x2048_S32000x2048_S8x1024x32000_2_1_01_0_n_n.rhsIdx (ix3 b t v)
      ((contrEquiv1 _ 2048 rfl rfl).symm c) = ix2 v c := by
    funext ax; apply Fin.ext
    match ax with
    | ⟨0, _⟩ => simp [DotDims.rhsIdx, dot_S8x1024x2048_S32000x2048_S8x1024x32000_2_1_01_0_n_n]; rfl
    | ⟨1, _⟩ => simp [DotDims.rhsIdx, dot_S8x1024x2048_S32000x2048_S8x1024x32000_2_1_01_0_n_n]; exact c3
  rw [l3, r3]

/-- The bias broadcast along the vocabulary axis reads the bias at the column. -/
theorem bias_apply (A3 : FVec Ideal S32000 .f32) (b : Fin 8) (t : Fin 1024) (v : Fin 32000) :
    (broadcastInDim S8x1024x32000 ![0, 1, 2] bcast_S1x1x32000_S8x1024x32000_0_1_2
      (broadcastInDim S1x1x32000 ![2] bcast_S32000_S1x1x32000_2 A3) : FVec Ideal S8x1024x32000 .f32) (ix3 b t v)
      = A3 (ix1 v) := by
  rw [broadcastInDim_apply _ _ _ (ix3 b t v) (ix3 (0 : Fin 1) (0 : Fin 1) v) (by
    intro a
    match a with
    | ⟨0, _⟩ => rfl
    | ⟨1, _⟩ => rfl
    | ⟨2, _⟩ => rfl)]
  rw [broadcastInDim_apply _ _ _ (ix3 (0 : Fin 1) (0 : Fin 1) v) (ix1 v) (by
    intro a
    match a with
    | ⟨0, _⟩ => rfl)]

/-- The reference's logits at token (b, t) and column v are the specification's. -/
theorem refLogits_apply (A0 : FVec Ideal S32000x2048 .f32) (A1 : FVec Ideal S8x1024x2048 .f32) (A3 : FVec Ideal S32000 .f32)
    (b : Fin 8) (t : Fin 1024) (v : Fin 32000) :
    refLogits A0 A1 A3 (ix3 b t v) = Spec.logits A0 A1 A3 b t v := by
  unfold refLogits Spec.logits
  dsimp only
  rw [addf_apply, dot_apply, bias_apply]

/-! ## The log-softmax at an index -/

theorem reduces_vocab : S8x1024x32000.Reduces [2] S8x1024 := by decide

/-- Token (b, t) with column k put back is (b, t, k). -/
theorem lift_vocab (b : Fin 8) (t : Fin 1024) (k : Fin (S8x1024x32000.size 2)) :
    reduces_vocab.lift (ix2 b t) k = ix3 b t (⟨k.val, k.isLt⟩ : Fin 32000) := by
  funext c; apply Fin.ext
  match c with
  | ⟨0, _⟩ => rfl
  | ⟨1, _⟩ => rfl
  | ⟨2, _⟩ => rfl

/-- The maximum-reduce from −∞ over the vocabulary axis, at token (b, t), is the row's maximum. -/
theorem rowMax_apply (x : FVec Ideal S8x1024x32000 .f32) (b : Fin 8) (t : Fin 1024) :
    Host.reduce FloatOps.maximumf x (constant (F := Ideal) S_ .f32 0xFF800000#32) reducesTo_S8x1024x32000_S8x1024_d2 h_S_ (ix2 b t)
      = Spec.rowMax (fun v => x (ix3 b t v)) := by
  rw [Host.reduce_eq_fold_single FloatOps.maximumf x _ reducesTo_S8x1024x32000_S8x1024_d2 reduces_vocab h_S_]
  unfold Spec.rowMax
  have hb : (constant (F := Ideal) S_ .f32 0xFF800000#32) (Shape.Idx.first h_S_) = (⊥ : EReal) := by
    rw [constant_apply]; simp [Ideal.ofBits, Ideal.ieee]
  rw [hb]
  have hf : (x ∘ reduces_vocab.lift (ix2 b t)) = fun v : Fin 32000 => x (ix3 b t v) :=
    funext fun k => congrArg x (lift_vocab b t k)
  exact congrArg (fun f => Finset.fold max (⊥ : EReal) f (Finset.univ : Finset (Fin 32000))) hf

/-- The add-reduce from 0 over the vocabulary axis, at token (b, t), is the row's sum. -/
theorem rowSum_apply (x : FVec Ideal S8x1024x32000 .f32) (b : Fin 8) (t : Fin 1024) :
    Host.reduceAdd (F := Ideal) x (constant (F := Ideal) S_ .f32 0x00000000#32) reducesTo_S8x1024x32000_S8x1024_d2 h_S_ (ix2 b t)
      = ∑ v : Fin 32000, x (ix3 b t v) := by
  rw [hostReduceAdd_apply, Ideal.hostReduceAdd_single _ reduces_vocab, constant_apply, Ideal.ofBits_zero_f32, zero_add]
  exact Finset.sum_congr rfl fun k _ => congrArg x (lift_vocab b t k)

/-- A column [8, 1024, 1] spread along the vocabulary axis reads its entry at the token. -/
theorem spread_apply {α : Type} (z : S8x1024x1.Idx → α) (b : Fin 8) (t : Fin 1024) (v : Fin 32000) :
    broadcastInDim S8x1024x32000 ![0, 1, 2] bcast_S8x1024x1_S8x1024x32000_0_1_2 z (ix3 b t v) = z (ix3 b t (0 : Fin 1)) := by
  rw [broadcastInDim_apply _ _ _ (ix3 b t v) (ix3 b t (0 : Fin 1)) (by
    intro a
    match a with
    | ⟨0, _⟩ => rfl
    | ⟨1, _⟩ => rfl
    | ⟨2, _⟩ => rfl)]

/-- An [8, 1024] array given a trailing unit axis reads its entry at the token. -/
theorem unitAxis_apply {α : Type} (y : S8x1024.Idx → α) (b : Fin 8) (t : Fin 1024) :
    broadcastInDim S8x1024x1 ![0, 1] bcast_S8x1024_S8x1024x1_0_1 y (ix3 b t (0 : Fin 1)) = y (ix2 b t) := by
  rw [broadcastInDim_apply _ _ _ (ix3 b t (0 : Fin 1)) (ix2 b t) (by
    intro a
    match a with
    | ⟨0, _⟩ => rfl
    | ⟨1, _⟩ => rfl)]

theorem hostLog_apply {s : Shape} (y : FVec Ideal s .f32) (i : s.Idx) : Host.log y i = Ideal.log (y i) := rfl
theorem hostExp_apply {s : Shape} (y : FVec Ideal s .f32) (i : s.Idx) : Host.exp y i = Ideal.exp (y i) := rfl

theorem ninf_eq : Ideal.ofBits .f32 0xFF800000#32 = (⊥ : EReal) := by simp [Ideal.ofBits, Ideal.ieee]

/-- The logits shifted by their row maximum (the maximum taken from −∞, and once more against −∞). -/
def shifted (x : FVec Ideal S8x1024x32000 .f32) : FVec Ideal S8x1024x32000 .f32 :=
  subf x (broadcastInDim S8x1024x32000 ![0, 1, 2] bcast_S8x1024x1_S8x1024x32000_0_1_2
    (broadcastInDim S8x1024x1 ![0, 1] bcast_S8x1024_S8x1024x1_0_1
      (maximumf (broadcastInDim S8x1024 ![] bcast_S_S8x1024 (constant (F := Ideal) S_ .f32 0xFF800000#32))
        (Host.reduce FloatOps.maximumf x (constant (F := Ideal) S_ .f32 0xFF800000#32) reducesTo_S8x1024x32000_S8x1024_d2 h_S_))))

theorem shifted_apply (x : FVec Ideal S8x1024x32000 .f32) (b : Fin 8) (t : Fin 1024) (v : Fin 32000) :
    shifted x (ix3 b t v) = x (ix3 b t v) - Spec.rowMax (fun v' => x (ix3 b t v')) := by
  unfold shifted
  rw [subf_apply, spread_apply, unitAxis_apply, maximumf_apply, broadcastInDim_scalar_apply, constant_apply, rowMax_apply,
    ninf_eq, max_bot_left]

/-- The log-softmax is the shifted logits minus the log of the row sum of their exponentials. -/
theorem refLogSoftmax_eq (x : FVec Ideal S8x1024x32000 .f32) :
    refLogSoftmax x = subf (shifted x) (broadcastInDim S8x1024x32000 ![0, 1, 2] bcast_S8x1024x1_S8x1024x32000_0_1_2
      (Host.log (broadcastInDim S8x1024x1 ![0, 1] bcast_S8x1024_S8x1024x1_0_1
        (Host.reduceAdd (F := Ideal) (Host.exp (shifted x)) (constant (F := Ideal) S_ .f32 0x00000000#32)
          reducesTo_S8x1024x32000_S8x1024_d2 h_S_)))) := rfl

/-- The reference's log-softmax at token (b, t) and column v is the specification's, of the row of logits. -/
theorem refLogSoftmax_apply (x : FVec Ideal S8x1024x32000 .f32) (b : Fin 8) (t : Fin 1024) (v : Fin 32000) :
    refLogSoftmax x (ix3 b t v) = Spec.logp (fun v' => x (ix3 b t v')) v := by
  rw [refLogSoftmax_eq, subf_apply, shifted_apply, spread_apply, hostLog_apply, unitAxis_apply, rowSum_apply]
  unfold Spec.logp
  simp only [hostExp_apply, shifted_apply]

/-! ## The take at an index -/

theorem reduces_unit : S8x1024x1x1.Reduces [3] S8x1024x1 := by decide

/-- Token (b, t, 0) with the trailing unit coordinate put back is (b, t, 0, 0). -/
theorem lift_unit (b : Fin 8) (t : Fin 1024) (k : Fin (S8x1024x1x1.size 3)) :
    reduces_unit.lift (ix3 b t (0 : Fin 1)) k = ix4 b t (0 : Fin 1) (0 : Fin 1) := by
  funext c; apply Fin.ext
  match c with
  | ⟨0, _⟩ => rfl
  | ⟨1, _⟩ => rfl
  | ⟨2, _⟩ => rfl
  | ⟨3, _⟩ =>
    show k.val = 0
    have : k.val < 1 := k.isLt
    omega

/-- An and-fold from 1 of bits that are all 1 is 1. -/
theorem fold_andi_one {ι : Type} (s : Finset ι) (f : ι → BitVec 1) (hf : ∀ k, f k = 1#1) :
    s.fold IntOp.andi 1#1 f = 1#1 := by
  classical
  obtain rfl : f = fun _ => 1#1 := funext hf
  induction s using Finset.induction_on with
  | empty => rfl
  | insert a s ha ih => rw [Finset.fold_insert ha, ih]; rfl

/-- The index with negative words wrapped by 32000, given one more trailing unit axis. -/
def wrapped (ix : IVec S8x1024x1 32) : IVec S8x1024x1x1 32 :=
  shapeCast S8x1024x1x1
    (select (cmpi .slt ix (broadcastInDim S8x1024x1 ![] bcast_S_S8x1024x1 (constantI S_ 32 0#32)))
      (addi ix (broadcastInDim S8x1024x1 ![] bcast_S_S8x1024x1 (constantI S_ 32 32000#32))) ix)
    shapeCasts_S8x1024x1_S8x1024x1x1

/-- A word that is not negative is not wrapped. -/
theorem wrapped_apply (ix : IVec S8x1024x1 32) (b : Fin 8) (t : Fin 1024)
    (h : Scalar.cmpi .slt (ix (ix3 b t (0 : Fin 1))) 0#32 = 0#1) :
    wrapped ix (ix4 b t (0 : Fin 1) (0 : Fin 1)) = ix (ix3 b t (0 : Fin 1)) := by
  unfold wrapped
  rw [shapeCast_apply _ _ (ix4 b t (0 : Fin 1) (0 : Fin 1)) (ix3 b t (0 : Fin 1)) (by
    rw [Shape.rowMajor_val_three, Shape.rowMajor_val_four]
    show (b.val * 1024 + t.val) * 1 + 0 = ((b.val * 1024 + t.val) * 1 + 0) * 1 + 0
    omega)]
  rw [select_apply]
  show Scalar.select (Scalar.cmpi .slt (ix (ix3 b t (0 : Fin 1))) (broadcastInDim S8x1024x1 ![] bcast_S_S8x1024x1 (constantI S_ 32 0#32) (ix3 b t (0 : Fin 1)))) _ _ = _
  rw [broadcastInDim_scalar_apply, constantI_apply, h, select_zero]

/-- The test 0 ≤ index ≤ 31999, reduced by and over the trailing unit axis. -/
def inRange (y : IVec S8x1024x1x1 32) : IVec S8x1024x1 1 :=
  Host.reduce IntOp.andi
    (andi (cmpi .sge y (broadcastInDim S8x1024x1x1 ![] bcast_S_S8x1024x1x1 (constantI S_ 32 0#32)))
      (cmpi .sle y (broadcastInDim S8x1024x1x1 ![0, 1, 2, 3] bcast_S1x1x1x1_S8x1024x1x1_0_1_2_3
        (broadcastInDim S1x1x1x1 ![3] bcast_S1_S1x1x1x1_3 (constantI S1 32 31999#32)))))
    (constantI S_ 1 1#1) reducesTo_S8x1024x1x1_S8x1024x1_d3 h_S_

/-- The upper bound 31999 spread to every index. -/
theorem top_apply (b : Fin 8) (t : Fin 1024) :
    (broadcastInDim S8x1024x1x1 ![0, 1, 2, 3] bcast_S1x1x1x1_S8x1024x1x1_0_1_2_3
      (broadcastInDim S1x1x1x1 ![3] bcast_S1_S1x1x1x1_3 (constantI S1 32 31999#32)) : IVec S8x1024x1x1 32)
      (ix4 b t (0 : Fin 1) (0 : Fin 1)) = 31999#32 := by
  rw [broadcastInDim_apply _ _ _ (ix4 b t (0 : Fin 1) (0 : Fin 1)) (ix4 (0 : Fin 1) (0 : Fin 1) (0 : Fin 1) (0 : Fin 1)) (by
    intro a
    match a with
    | ⟨0, _⟩ => rfl
    | ⟨1, _⟩ => rfl
    | ⟨2, _⟩ => rfl
    | ⟨3, _⟩ => rfl)]
  rw [broadcastInDim_apply _ _ _ (ix4 (0 : Fin 1) (0 : Fin 1) (0 : Fin 1) (0 : Fin 1)) (ix1 (0 : Fin 1)) (by
    intro a
    match a with
    | ⟨0, _⟩ => rfl)]
  rfl

/-- An index word inside [0, 31999] passes the test. -/
theorem inRange_apply (y : IVec S8x1024x1x1 32) (b : Fin 8) (t : Fin 1024)
    (h1 : Scalar.cmpi .sge (y (ix4 b t (0 : Fin 1) (0 : Fin 1))) 0#32 = 1#1)
    (h2 : Scalar.cmpi .sle (y (ix4 b t (0 : Fin 1) (0 : Fin 1))) 31999#32 = 1#1) :
    inRange y (ix3 b t (0 : Fin 1)) = 1#1 := by
  unfold inRange
  rw [Host.reduce_eq_fold_single IntOp.andi _ _ reducesTo_S8x1024x1x1_S8x1024x1_d3 reduces_unit h_S_]
  rw [constantI_apply]
  refine fold_andi_one _ _ fun k => ?_
  show (andi _ _ : IVec S8x1024x1x1 1) (reduces_unit.lift (ix3 b t (0 : Fin 1)) k) = 1#1
  rw [lift_unit]
  show IntOp.andi (Scalar.cmpi .sge (y (ix4 b t (0 : Fin 1) (0 : Fin 1))) (broadcastInDim S8x1024x1x1 ![] bcast_S_S8x1024x1x1 (constantI S_ 32 0#32) (ix4 b t (0 : Fin 1) (0 : Fin 1))))
    (Scalar.cmpi .sle (y (ix4 b t (0 : Fin 1) (0 : Fin 1))) _) = 1#1
  rw [broadcastInDim_scalar_apply, constantI_apply, top_apply, h1, h2]
  rfl

/-- The take is the gather where the wrapped index passes the range test, the NaN pattern elsewhere. -/
theorem refTake_eq (x : FVec Ideal S8x1024x32000 .f32) (ix : IVec S8x1024x1 32) :
    refTake x ix = select (inRange (wrapped ix))
      (Host.gather gather_S8x1024x32000_S8x1024x1x1_S8x1024x1_n_2_01_01_2_3_111 x (wrapped ix))
      (broadcastInDim S8x1024x1 ![] bcast_S_S8x1024x1 (constant (F := Ideal) S_ .f32 0x7FC00000#32)) := rfl

/-- For an index word whose signed value is a column v of the vocabulary, the take at token (b, t) is the row's entry at v. -/
theorem refTake_apply (x : FVec Ideal S8x1024x32000 .f32) (ix : IVec S8x1024x1 32) (b : Fin 8) (t : Fin 1024)
    (v : Fin 32000) (hw : (ix (ix3 b t (0 : Fin 1))).toInt = (v.val : ℤ)) :
    refTake x ix (ix3 b t (0 : Fin 1)) = x (ix3 b t v) := by
  obtain ⟨c1, c2, c3, _⟩ := Spec.cmp_in_range (ix (ix3 b t (0 : Fin 1))) v.val (by have := v.isLt; omega) hw
  have e := wrapped_apply ix b t c1
  rw [refTake_eq, select_apply, inRange_apply (wrapped ix) b t (by rw [e]; exact c2) (by rw [e]; exact c3), select_one]
  exact gather_apply x (wrapped ix) b t v (by rw [e]; exact hw)

/-! ## The clipped targets at an index -/

/-- The clipped targets with their trailing unit axis read, at token (b, t), the signed maximum of 0 and the target. -/
theorem refIdx_apply (A2 : IVec S8x1024 32) (b : Fin 8) (t : Fin 1024) :
    refIdx A2 (ix3 b t (0 : Fin 1))
      = maxsi (broadcastInDim S8x1024 ![] bcast_S_S8x1024 (id (constantI S_ 32 0#32))) A2 (ix2 b t) := by
  unfold refIdx
  dsimp only
  rw [unitAxis_apply]

end RRead

open RRead

/-! ## The per-token values -/

/-- On admissible arguments the reference's per-token values are `Spec.ptl`. -/
theorem refPtl_eq (A0 : FVec Ideal S32000x2048 .f32) (A1 : FVec Ideal S8x1024x2048 .f32) (A2 : IVec S8x1024 32)
    (A3 : FVec Ideal S32000 .f32) (h : Spec.Admissible A0 A1 A2 A3) :
    refPtl A0 A1 A2 A3 = Spec.ptl A0 A1 A2 A3 := by
  funext i
  obtain ⟨b, t, rfl⟩ : ∃ (b : Fin 8) (t : Fin 1024), i = ix2 b t := ⟨i 0, i 1, eq_ix2 i⟩
  unfold refPtl
  rw [shapeCast_apply _ _ (ix2 b t) (ix3 b t (0 : Fin 1)) (by
    rw [Shape.rowMajor_val_three, Shape.rowMajor_val_two]
    show (b.val * 1024 + t.val) * 1 + 0 = b.val * 1024 + t.val
    omega)]
  -- the index word's signed value is the clipped target, a column of the vocabulary
  have hw : (refIdx A2 (ix3 b t (0 : Fin 1))).toInt = ((Spec.tgtIdx (A2 (ix2 b t))).val : ℤ) := by
    rw [refIdx_apply]
    exact Spec.clip1_facts A2 _ (fun i => by rw [broadcastInDim_scalar_apply]; rfl) (ix2 b t) (h.tgt_le _)
  rw [refTake_apply _ _ b t (Spec.tgtIdx (A2 (ix2 b t))) hw, refLogSoftmax_apply]
  unfold Spec.ptl
  show Spec.logp (fun v' => refLogits A0 A1 A3 (ix3 b t v')) _ = Spec.logp (Spec.logits A0 A1 A3 b t) _
  congr 1
  funext v'
  exact refLogits_apply A0 A1 A3 b t v'

end Cert.ReferenceIdeal.RVal

end
-- ==== Proof.PreDecode.lean ====
/-
  The precondition read: "every |x| < +∞ over the three float arguments, and every target ≤ 31999" says that every
  float entry is a real number (an extended real whose absolute value is below +∞ is neither infinity) and that no
  target word exceeds 31999 as a signed integer.
-/
import proofs.«404955_j35150012350893_2_alg».proof.Pre_finite_inputs
import proofs.«404955_j35150012350893_2_alg».proof.Proof.Spec
import Idealize.ShloMosaic.Lib.ReduceAll
import Idealize.ShloMosaic.Lib.StableHlo.Predicate
import Idealize.ShloMosaic.Lib.ValueIdx

noncomputable section

namespace Cert.Spec

open Idealize.ShloMosaic

/-- A shape of rank 0 has exactly one index. -/
private instance subsingleton_scalar_idx : Subsingleton S_.Idx := ⟨fun a b => funext fun d => d.elim0⟩

/-- The word 0x7F800000 (sign 0, exponent all ones, fraction 0) read as an extended real is +∞. -/
private theorem inf_word : Ideal.ofBits .f32 0x7F800000#32 = ⊤ := by simp [Ideal.ofBits, Ideal.ieee]

/-- An extended real whose absolute value max x (−x) is strictly below +∞ is a real number: at −∞ and at +∞ the
    absolute value is +∞ itself, which is not below +∞. -/
private theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_word] at h
  induction x using EReal.rec with
  | bot => simp [Ideal.cmp] at h
  | coe r => exact ⟨r, rfl⟩
  | top => simp [Ideal.cmp] at h

/-- The printed precondition, all ones, makes the argument arrays admissible. -/
theorem admissible_of_pre [Cert.Pre_finite_inputs.Facts] (A0 : FVec Ideal S32000x2048 .f32) (A1 : FVec Ideal S8x1024x2048 .f32)
    (A2 : IVec S8x1024 32) (A3 : FVec Ideal S32000 .f32)
    (h : Cert.Pre_finite_inputs.fn (F := Ideal) A0 A1 A2 A3 = fun _ => 1#1) : Admissible A0 A1 A2 A3 := by
  -- The predicate's one word is the conjunction ((all₀ ∧ all₁) ∧ all₃) ∧ all₂ of four all-reductions.
  have h0 := congrFun h ValueIdx.ix0
  dsimp only [Cert.Pre_finite_inputs.fn, Cert.Pre_finite_inputs.fn_part1] at h0
  obtain ⟨h013, hT⟩ := IntOp.andi_eq_one.1 h0
  obtain ⟨h01, hA3⟩ := IntOp.andi_eq_one.1 h013
  obtain ⟨hA0, hA1⟩ := IntOp.andi_eq_one.1 h01
  refine ⟨fun i => ?_, fun i => ?_, fun i => ?_, fun i => ?_⟩
  -- A conjunction over all indices that is 1 is 1 at each index; there it reads |x| < +∞.
  · exact real_of_abs_lt_inf _ (Host.reduce_andi_all _ _ _ _ _ hA0 i)
  · exact real_of_abs_lt_inf _ (Host.reduce_andi_all _ _ _ _ _ hA1 i)
  · exact real_of_abs_lt_inf _ (Host.reduce_andi_all _ _ _ _ _ hA3 i)
  -- The signed comparison against the constant word 31999, whose signed value is 31999.
  · have hi := Host.reduce_andi_all _ _ _ _ _ hT i
    have hc : (31999#32 : BitVec 32).toInt = 31999 := by decide
    have hle : (A2 i).toInt ≤ (31999#32 : BitVec 32).toInt := IntOp.cmpi_sle.1 hi
    rw [hc] at hle
    exact hle

end Cert.Spec

end
-- ==== Proof.lean ====
/-
  The certificate of the fused linear + log-softmax + odds-ratio loss.

  The kernel streams each token's 32000 logits x·wᵀ + bias through 25 chunks of 1280 columns, keeping a running
  maximum, a running sum of exponentials and the logit at the clipped target, and reports
  target-logit − (max + log sum); the reference forms all logits, takes their log-softmax and reads it at the target
  clipped below at 0. Over the extended reals, for real inputs and targets ≤ 31999, both are the same per-token value
  (the stream's invariant; exp (a − m) · exp (m − m') = exp (a − m')), and both programs then apply the same chain of
  host operations to those values and to the targets. The frames are the generated ones for the two kernel programs
  and the reference's run for the reference; the idealization rewrote nothing.
-/
import proofs.«404955_j35150012350893_2_alg».proof.Defs
import proofs.«404955_j35150012350893_2_alg».proof.Proof.Gen.Kernel
import proofs.«404955_j35150012350893_2_alg».proof.Proof.Gen.Kernel.Frame
import proofs.«404955_j35150012350893_2_alg».proof.Proof.Gen.KernelIdeal
import proofs.«404955_j35150012350893_2_alg».proof.Proof.Gen.KernelIdeal.Frame
import proofs.«404955_j35150012350893_2_alg».proof.Proof.Gen.ReferenceIdeal
import proofs.«404955_j35150012350893_2_alg».proof.Proof.Gen.Pre_finite_inputs
import proofs.«404955_j35150012350893_2_alg».proof.Proof.KAsm
import proofs.«404955_j35150012350893_2_alg».proof.Proof.RRun
import proofs.«404955_j35150012350893_2_alg».proof.Proof.RRead
import proofs.«404955_j35150012350893_2_alg».proof.Proof.PreDecode
import Idealize.ShloMosaic.Adequacy
import Idealize.ShloMosaic.Init

noncomputable section

namespace Cert.Proof

open Idealize.ShloMosaic Idealize.SL.Sem

/-- The kernel's frame at the word level: generated. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: generated. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RVal.run m ρ)

/-- Both programs end at the loss chain of the specification's per-token values: the kernel by its stream, the
    reference by its log-softmax and gather, on arguments that agree and are admissible by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hadm : ∀ c : Dev Cert.KernelIdeal.nD, Cert.Spec.Admissible (Cert.KernelIdeal.KHost.a0 m c) (Cert.KernelIdeal.KHost.a1 m c)
      (Cert.KernelIdeal.KHost.a2 m c) (Cert.KernelIdeal.KHost.a3 m c) :=
    fun c => Cert.Spec.admissible_of_pre _ _ _ _ (hpre c)
  refine ⟨_, Cert.KernelIdeal.KVal.run m ρ hadm, ?_⟩
  refine (θ_run Cert.ReferenceIdeal.defs _ _).mono (fun _ h c => ⟨(h c).1.trans ?_, (h c).2⟩)
    (Cert.ReferenceIdeal.RVal.run m' ρ')
  rw [(hagree c).1, (hagree c).2.1, (hagree c).2.2.1, (hagree c).2.2.2]
  exact congrArg (fun p => Cert.Spec.tail p _) (Cert.ReferenceIdeal.RVal.refPtl_eq _ _ _ _ (hadm c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
